-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x3136x1 : Shape := ⟨4, ![8, 96, 3136, 1]⟩
abbrev S2x8x3136x18 : Shape := ⟨4, ![2, 8, 3136, 18]⟩
abbrev S_ : Shape := ⟨0, ![]⟩

class Facts : Prop where
  bcast_S_S8x96x3136x1 : S_.BroadcastsInDim S8x96x3136x1 (![] : Fin 0 → Fin S8x96x3136x1.rank)
  reducesTo_S8x96x3136x1_S_d0_1_2_3 : S8x96x3136x1.ReducesTo [0, 1, 2, 3] S_
  h_S_ : 0 < S_.numel
  bcast_S_S2x8x3136x18 : S_.BroadcastsInDim S2x8x3136x18 (![] : Fin 0 → Fin S2x8x3136x18.rank)
  reducesTo_S2x8x3136x18_S_d0_1_2_3 : S2x8x3136x18.ReducesTo [0, 1, 2, 3] S_

variable [Facts]

def fn {F : FTy → Type} [FloatOps F] (main_arg0 : FVec F S8x96x3136x1 .f32) (main_arg1 : FVec F S8x96x3136x1 .f32) (main_arg2 : IVec S2x8x3136x18 32) : IVec S_ 1 :=
  let main_v0 : FVec F S8x96x3136x1 .f32 := Host.absf main_arg0
  let main_cst : FVec F S_ .f32 := constant S_ .f32 0x7F800000#32
  let main_v1 : FVec F S8x96x3136x1 .f32 := broadcastInDim S8x96x3136x1 ![] bcast_S_S8x96x3136x1 main_cst
  let main_v2 : IVec S8x96x3136x1 1 := cmpf .olt main_v0 main_v1
  let main_c : IVec S_ 1 := constantI S_ 1 1#1
  let main_v3 : IVec S_ 1 := (fun x v => Host.reduce IntOp.andi x v reducesTo_S8x96x3136x1_S_d0_1_2_3 h_S_) main_v2 main_c
  let main_v4 : FVec F S8x96x3136x1 .f32 := Host.absf main_arg1
  let main_cst_0 : FVec F S_ .f32 := constant S_ .f32 0x7F800000#32
  let main_v5 : FVec F S8x96x3136x1 .f32 := broadcastInDim S8x96x3136x1 ![] bcast_S_S8x96x3136x1 main_cst_0
  let main_v6 : IVec S8x96x3136x1 1 := cmpf .olt main_v4 main_v5
  let main_c_1 : IVec S_ 1 := constantI S_ 1 1#1
  let main_v7 : IVec S_ 1 := (fun x v => Host.reduce IntOp.andi x v reducesTo_S8x96x3136x1_S_d0_1_2_3 h_S_) main_v6 main_c_1
  let main_v8 : IVec S_ 1 := andi main_v3 main_v7
  let main_c_2 : IVec S_ 32 := constantI S_ 32 0#32
  let main_v9 : IVec S2x8x3136x18 32 := broadcastInDim S2x8x3136x18 ![] bcast_S_S2x8x3136x18 main_c_2
  let main_v10 : IVec S2x8x3136x18 1 := cmpi .sge main_arg2 main_v9
  let main_c_3 : IVec S_ 32 := constantI S_ 32 3136#32
  let main_v11 : IVec S2x8x3136x18 32 := broadcastInDim S2x8x3136x18 ![] bcast_S_S2x8x3136x18 main_c_3
  let main_v12 : IVec S2x8x3136x18 1 := cmpi .slt main_arg2 main_v11
  let main_v13 : IVec S2x8x3136x18 1 := andi main_v10 main_v12
  let main_c_4 : IVec S_ 1 := constantI S_ 1 1#1
  let main_v14 : IVec S_ 1 := (fun x v => Host.reduce IntOp.andi x v reducesTo_S2x8x3136x18_S_d0_1_2_3 h_S_) main_v13 main_c_4
  let main_v15 : IVec S_ 1 := andi main_v8 main_v14
  main_v15
-- ==== Kernel.lean ====
abbrev S8x96x3136x1 : Shape := ⟨4, ![8, 96, 3136, 1]⟩
abbrev S2x8x3136x18 : Shape := ⟨4, ![2, 8, 3136, 18]⟩
abbrev S8x96x3136 : Shape := ⟨3, ![8, 96, 3136]⟩
abbrev S1x8x3136x18 : Shape := ⟨4, ![1, 8, 3136, 18]⟩
abbrev S8x3136x18 : Shape := ⟨3, ![8, 3136, 18]⟩
abbrev S8x3136x96 : Shape := ⟨3, ![8, 3136, 96]⟩
abbrev S_ : Shape := ⟨0, ![]⟩
abbrev S8x3200x96 : Shape := ⟨3, ![8, 3200, 96]⟩
abbrev S8x3200x18 : Shape := ⟨3, ![8, 3200, 18]⟩
abbrev S8x3200x192 : Shape := ⟨3, ![8, 3200, 192]⟩
abbrev S8x57600x1 : Shape := ⟨3, ![8, 57600, 1]⟩
abbrev S8x3200x128 : Shape := ⟨3, ![8, 3200, 128]⟩
abbrev S1x3200x192 : Shape := ⟨3, ![1, 3200, 192]⟩
abbrev S1x1152x1 : Shape := ⟨3, ![1, 1152, 1]⟩
abbrev S1x64x128 : Shape := ⟨3, ![1, 64, 128]⟩
abbrev S1152x1 : Shape := ⟨2, ![1152, 1]⟩
abbrev S3200x192 : Shape := ⟨2, ![3200, 192]⟩
abbrev S1152x3200 : Shape := ⟨2, ![1152, 3200]⟩
abbrev S1152x192 : Shape := ⟨2, ![1152, 192]⟩
abbrev S64x18x192 : Shape := ⟨3, ![64, 18, 192]⟩
abbrev S64x18x96 : Shape := ⟨3, ![64, 18, 96]⟩
abbrev S64x18 : Shape := ⟨2, ![64, 18]⟩
abbrev S64x18x1 : Shape := ⟨3, ![64, 18, 1]⟩
abbrev S64x96 : Shape := ⟨2, ![64, 96]⟩
abbrev S64x32 : Shape := ⟨2, ![64, 32]⟩
abbrev S64x128 : Shape := ⟨2, ![64, 128]⟩

abbrev nBuf : Space → Nat
  | .hbm => 34
  | .vmem => 10
  | .smem => 0
  | _ => 0

abbrev bufTy : (tb : Table) → Fin (tcTables nBuf tb) → BufTy
  | .hbm, ⟨0, _⟩ => ⟨S8x96x3136x1, .f32⟩
  | .hbm, ⟨1, _⟩ => ⟨S8x96x3136x1, .f32⟩
  | .hbm, ⟨2, _⟩ => ⟨S2x8x3136x18, .i32⟩
  | .hbm, ⟨3, _⟩ => ⟨S8x96x3136, .f32⟩
  | .hbm, ⟨4, _⟩ => ⟨S8x96x3136, .f32⟩
  | .hbm, ⟨5, _⟩ => ⟨S1x8x3136x18, .i32⟩
  | .hbm, ⟨6, _⟩ => ⟨S8x3136x18, .i32⟩
  | .hbm, ⟨7, _⟩ => ⟨S1x8x3136x18, .i32⟩
  | .hbm, ⟨8, _⟩ => ⟨S8x3136x18, .i32⟩
  | .hbm, ⟨9, _⟩ => ⟨S8x3136x96, .f32⟩
  | .hbm, ⟨10, _⟩ => ⟨S8x3136x96, .f32⟩
  | .hbm, ⟨11, _⟩ => ⟨S_, .i32⟩
  | .hbm, ⟨12, _⟩ => ⟨S_, .f32⟩
  | .hbm, ⟨13, _⟩ => ⟨S8x3200x96, .f32⟩
  | .hbm, ⟨14, _⟩ => ⟨S_, .i32⟩
  | .hbm, ⟨15, _⟩ => ⟨S_, .f32⟩
  | .hbm, ⟨16, _⟩ => ⟨S8x3200x96, .f32⟩
  | .hbm, ⟨17, _⟩ => ⟨S_, .i32⟩
  | .hbm, ⟨18, _⟩ => ⟨S_, .i32⟩
  | .hbm, ⟨19, _⟩ => ⟨S8x3200x18, .i32⟩
  | .hbm, ⟨20, _⟩ => ⟨S_, .i32⟩
  | .hbm, ⟨21, _⟩ => ⟨S_, .i32⟩
  | .hbm, ⟨22, _⟩ => ⟨S8x3200x18, .i32⟩
  | .hbm, ⟨23, _⟩ => ⟨S8x3200x192, .f32⟩
  | .hbm, ⟨24, _⟩ => ⟨S8x3200x192, .bf16⟩
  | .hbm, ⟨25, _⟩ => ⟨S8x3200x192, .f32⟩
  | .hbm, ⟨26, _⟩ => ⟨S8x3200x192, .f32⟩
  | .hbm, ⟨27, _⟩ => ⟨S8x3200x192, .bf16⟩
  | .hbm, ⟨28, _⟩ => ⟨S8x57600x1, .i32⟩
  | .hbm, ⟨29, _⟩ => ⟨S8x57600x1, .i32⟩
  | .hbm, ⟨30, _⟩ => ⟨S8x3200x128, .f32⟩
  | .hbm, ⟨31, _⟩ => ⟨S8x3136x96, .f32⟩
  | .hbm, ⟨32, _⟩ => ⟨S8x96x3136, .f32⟩
  | .hbm, ⟨33, _⟩ => ⟨S8x96x3136x1, .f32⟩
  | .local _ .vmem, ⟨0, _⟩ => ⟨S1x3200x192, .bf16⟩
  | .local _ .vmem, ⟨1, _⟩ => ⟨S1x3200x192, .bf16⟩
  | .local _ .vmem, ⟨2, _⟩ => ⟨S1x3200x192, .bf16⟩
  | .local _ .vmem, ⟨3, _⟩ => ⟨S1x3200x192, .bf16⟩
  | .local _ .vmem, ⟨4, _⟩ => ⟨S1x1152x1, .i32⟩
  | .local _ .vmem, ⟨5, _⟩ => ⟨S1x1152x1, .i32⟩
  | .local _ .vmem, ⟨6, _⟩ => ⟨S1x1152x1, .i32⟩
  | .local _ .vmem, ⟨7, _⟩ => ⟨S1x1152x1, .i32⟩
  | .local _ .vmem, ⟨8, _⟩ => ⟨S1x64x128, .f32⟩
  | .local _ .vmem, ⟨9, _⟩ => ⟨S1x64x128, .f32⟩
  | _, _ => ⟨S8x96x3136x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_c_1 : Ref sig .tc := ⟨.hbm, 17, rfl⟩
abbrev main_call2_v0 : Ref sig .tc := ⟨.hbm, 18, rfl⟩
abbrev main_v10 : Ref sig .tc := ⟨.hbm, 19, rfl⟩
abbrev main_c_2 : Ref sig .tc := ⟨.hbm, 20, rfl⟩
abbrev main_call3_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3200x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3200x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1152x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1152x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x96x3136x1_S8x96x3136 : S8x96x3136x1.ShapeCasts S8x96x3136
  slices_S2x8x3136x18_S1x8x3136x18_1_0_0_0 : S2x8x3136x18.Slices ![1, 0, 0, 0] S1x8x3136x18
  shapeCasts_S1x8x3136x18_S8x3136x18 : S1x8x3136x18.ShapeCasts S8x3136x18
  slices_S2x8x3136x18_S1x8x3136x18_0_0_0_0 : S2x8x3136x18.Slices ![0, 0, 0, 0] S1x8x3136x18
  transposes_S8x96x3136_S8x3136x96_0_2_1 : S8x96x3136.Transposes [0, 2, 1] S8x3136x96
  pads_S8x3136x96_S8x3200x96_000_0640_000 : S8x3136x96.Pads (![0, 0, 0] : Fin 3 → Nat) ![0, 64, 0] ![0, 0, 0] S8x3200x96
  h_S_ : 0 < S_.numel
  pads_S8x3136x18_S8x3200x18_000_0640_000 : S8x3136x18.Pads (![0, 0, 0] : Fin 3 → Nat) ![0, 64, 0] ![0, 0, 0] S8x3200x18
  concatenates_S8x3200x96_S8x3200x96_S8x3200x192_d2 : Shape.Concatenates [S8x3200x96, S8x3200x96] S8x3200x192 2
  bitsLt_bf16_f32 : FTy.bits .bf16 < FTy.bits .f32
  shapeCasts_S8x3200x18_S8x57600x1 : S8x3200x18.ShapeCasts S8x57600x1
  inb_S1x1152x1_S1x1152x1_0_0_0 : ∀ a, (![0, 0, 0] : Fin 3 → Nat) a + S1x1152x1.size a ≤ S1x1152x1.size a
  h_S1x1152x1 : 0 < S1x1152x1.numel
  shapeCasts_S1x1152x1_S1152x1 : S1x1152x1.ShapeCasts S1152x1
  inb_S1x3200x192_S1x3200x192_0_0_0 : ∀ a, (![0, 0, 0] : Fin 3 → Nat) a + S1x3200x192.size a ≤ S1x3200x192.size a
  h_S1x3200x192 : 0 < S1x3200x192.numel
  shapeCasts_S1x3200x192_S3200x192 : S1x3200x192.ShapeCasts S3200x192
  iota_S1152x3200_d1_w32 : S1152x3200.Iotas .tc 32 [1]
  broadcasts_S1152x1_S1152x3200 : S1152x1.Broadcasts S1152x3200
  natLt_1_32 : 1 < 32
  shapeCasts_S1152x192_S64x18x192 : S1152x192.ShapeCasts S64x18x192
  slices_S64x18x192_o0_0_0_S64x18x96 : S64x18x192.Slices ![0, 0, 0] S64x18x96
  slices_S64x18x192_o0_0_96_S64x18x96 : S64x18x192.Slices ![0, 0, 96] S64x18x96
  reduces_S64x18x96_S64x18 : S64x18x96.Reduces [2] S64x18
  shapeCasts_S64x18_S64x18x1 : S64x18.ShapeCasts S64x18x1
  broadcasts_S64x18x1_S64x18x96 : S64x18x1.Broadcasts S64x18x96
  reduces_S64x18x96_S64x96 : S64x18x96.Reduces [1] S64x96
  concatenates_S64x96_S64x32_S64x128_d1 : Shape.Concatenates [S64x96, S64x32] S64x128 1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  slices_S8x3200x128_S8x3136x96_0_0_0 : S8x3200x128.Slices ![0, 0, 0] S8x3136x96
  transposes_S8x3136x96_S8x96x3136_0_2_1 : S8x3136x96.Transposes [0, 2, 1] S8x96x3136
  bcast_S8x96x3136_S8x96x3136x1_0_1_2 : S8x96x3136.BroadcastsInDim S8x96x3136x1 (![0, 1, 2] : Fin 3 → Fin S8x96x3136x1.rank)
  dot_S1152x3200_S3200x192_S1152x192_1_0_0_1_n_n_wf : DotDims.WF S1152x3200 S3200x192 S1152x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200x192.size a ≤ S8x3200x192.size a
  hwx0_0 : ∀ i : grid0.Coords, EltTy.bits .bf16 = 32 ∨ (Rect.block (s := S8x3200x192) S1x3200x192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200x192.size a ≤ S8x3200x192.size a
  hwx0_1 : ∀ i : grid0.Coords, EltTy.bits .bf16 = 32 ∨ (Rect.block (s := S8x3200x192) S1x3200x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1152x1.size a ≤ S8x57600x1.size a
  hwx0_2 : ∀ i : grid0.Coords, EltTy.bits .i32 = 32 ∨ (Rect.block (s := S8x57600x1) S1x1152x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1152x1.size a ≤ S8x57600x1.size a
  hwx0_3 : ∀ i : grid0.Coords, EltTy.bits .i32 = 32 ∨ (Rect.block (s := S8x57600x1) S1x1152x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x128.size a ≤ S8x3200x128.size a
  hwx0_4 : ∀ i : grid0.Coords, EltTy.bits .f32 = 32 ∨ (Rect.block (s := S8x3200x128) S1x64x128.size (cc0_transform_4 i) (hinb0_4 i)).WholeWords (EltTy.packing .f32)

variable [Facts₀]

def dot_S1152x3200_S3200x192_S1152x192_1_0_0_1_n_n : DotDims S1152x3200 S3200x192 S1152x192 where
  lhsContracting := [1]
  rhsContracting := [0]
  lhsNonContracting := [0]
  rhsNonContracting := [1]
  lhsBatch := []
  rhsBatch := []
  wf := dot_S1152x3200_S3200x192_S1152x192_1_0_0_1_n_n_wf

abbrev win0_0 : Pipeline.Window sig grid0 :=
  Pipeline.Window.ofSpec (Memref.whole main_v13) S1x3200x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x3200x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1152x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x1152x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x96x3136x1 : Shape := ⟨4, ![8, 96, 3136, 1]⟩
abbrev S2x8x3136x18 : Shape := ⟨4, ![2, 8, 3136, 18]⟩
abbrev S8x96x3136 : Shape := ⟨3, ![8, 96, 3136]⟩
abbrev S1x8x3136x18 : Shape := ⟨4, ![1, 8, 3136, 18]⟩
abbrev S8x3136x18 : Shape := ⟨3, ![8, 3136, 18]⟩
abbrev S_ : Shape := ⟨0, ![]⟩
abbrev S8x3136x18x1 : Shape := ⟨4, ![8, 3136, 18, 1]⟩
abbrev S8x96x3136x18 : Shape := ⟨4, ![8, 96, 3136, 18]⟩
abbrev S8x1x3136x18 : Shape := ⟨4, ![8, 1, 3136, 18]⟩

abbrev nBuf : Space → Nat
  | .hbm => 126
  | .vmem => 0
  | .smem => 0
  | _ => 0

abbrev bufTy : (tb : Table) → Fin (tcTables nBuf tb) → BufTy
  | .hbm, ⟨0, _⟩ => ⟨S8x96x3136x1, .f32⟩
  | .hbm, ⟨1, _⟩ => ⟨S8x96x3136x1, .f32⟩
  | .hbm, ⟨2, _⟩ => ⟨S2x8x3136x18, .i32⟩
  | .hbm, ⟨3, _⟩ => ⟨S8x96x3136, .f32⟩
  | .hbm, ⟨4, _⟩ => ⟨S8x96x3136, .f32⟩
  | .hbm, ⟨5, _⟩ => ⟨S1x8x3136x18, .i32⟩
  | .hbm, ⟨6, _⟩ => ⟨S8x3136x18, .i32⟩
  | .hbm, ⟨7, _⟩ => ⟨S1x8x3136x18, .i32⟩
  | .hbm, ⟨8, _⟩ => ⟨S8x3136x18, .i32⟩
  | .hbm, ⟨9, _⟩ => ⟨S_, .i32⟩
  | .hbm, ⟨10, _⟩ => ⟨S8x3136x18, .i32⟩
  | .hbm, ⟨11, _⟩ => ⟨S8x3136x18, .i1⟩
  | .hbm, ⟨12, _⟩ => ⟨S_, .i32⟩
  | .hbm, ⟨13, _⟩ => ⟨S8x3136x18, .i32⟩
  | .hbm, ⟨14, _⟩ => ⟨S8x3136x18, .i32⟩
  | .hbm, ⟨15, _⟩ => ⟨S8x3136x18, .i32⟩
  | .hbm, ⟨16, _⟩ => ⟨S8x3136x18x1, .i32⟩
  | .hbm, ⟨17, _⟩ => ⟨S8x96x3136x18, .f32⟩
  | .hbm, ⟨18, _⟩ => ⟨S_, .i32⟩
  | .hbm, ⟨19, _⟩ => ⟨S8x3136x18, .i32⟩
  | .hbm, ⟨20, _⟩ => ⟨S8x3136x18, .i1⟩
  | .hbm, ⟨21, _⟩ => ⟨S_, .i32⟩
  | .hbm, ⟨22, _⟩ => ⟨S8x3136x18, .i32⟩
  | .hbm, ⟨23, _⟩ => ⟨S8x3136x18, .i32⟩
  | .hbm, ⟨24, _⟩ => ⟨S8x3136x18, .i32⟩
  | .hbm, ⟨25, _⟩ => ⟨S8x3136x18x1, .i32⟩
  | .hbm, ⟨26, _⟩ => ⟨S8x96x3136x18, .f32⟩
  | .hbm, ⟨27, _⟩ => ⟨S_, .i32⟩
  | .hbm, ⟨28, _⟩ => ⟨S8x3136x18, .i32⟩
  | .hbm, ⟨29, _⟩ => ⟨S8x3136x18, .i1⟩
  | .hbm, ⟨30, _⟩ => ⟨S_, .i32⟩
  | .hbm, ⟨31, _⟩ => ⟨S8x3136x18, .i32⟩
  | .hbm, ⟨32, _⟩ => ⟨S8x3136x18, .i32⟩
  | .hbm, ⟨33, _⟩ => ⟨S8x3136x18, .i32⟩
  | .hbm, ⟨34, _⟩ => ⟨S8x3136x18x1, .i32⟩
  | .hbm, ⟨35, _⟩ => ⟨S8x96x3136x18, .f32⟩
  | .hbm, ⟨36, _⟩ => ⟨S_, .i32⟩
  | .hbm, ⟨37, _⟩ => ⟨S8x3136x18, .i32⟩
  | .hbm, ⟨38, _⟩ => ⟨S8x3136x18, .i1⟩
  | .hbm, ⟨39, _⟩ => ⟨S_, .i32⟩
  | .hbm, ⟨40, _⟩ => ⟨S8x3136x18, .i32⟩
  | .hbm, ⟨41, _⟩ => ⟨S8x3136x18, .i32⟩
  | .hbm, ⟨42, _⟩ => ⟨S8x3136x18, .i32⟩
  | .hbm, ⟨43, _⟩ => ⟨S8x3136x18x1, .i32⟩
  | .hbm, ⟨44, _⟩ => ⟨S8x96x3136x18, .f32⟩
  | .hbm, ⟨45, _⟩ => ⟨S_, .f32⟩
  | .hbm, ⟨46, _⟩ => ⟨S8x3136x18, .f32⟩
  | .hbm, ⟨47, _⟩ => ⟨S8x1x3136x18, .f32⟩
  | .hbm, ⟨48, _⟩ => ⟨S_, .f32⟩
  | .hbm, ⟨49, _⟩ => ⟨S8x1x3136x18, .f32⟩
  | .hbm, ⟨50, _⟩ => ⟨S8x1x3136x18, .f32⟩
  | .hbm, ⟨51, _⟩ => ⟨S_, .f32⟩
  | .hbm, ⟨52, _⟩ => ⟨S8x3136x18, .f32⟩
  | .hbm, ⟨53, _⟩ => ⟨S8x1x3136x18, .f32⟩
  | .hbm, ⟨54, _⟩ => ⟨S_, .f32⟩
  | .hbm, ⟨55, _⟩ => ⟨S8x1x3136x18, .f32⟩
  | .hbm, ⟨56, _⟩ => ⟨S8x1x3136x18, .f32⟩
  | .hbm, ⟨57, _⟩ => ⟨S8x96x3136x18, .f32⟩
  | .hbm, ⟨58, _⟩ => ⟨S8x96x3136x18, .f32⟩
  | .hbm, ⟨59, _⟩ => ⟨S8x96x3136x18, .f32⟩
  | .hbm, ⟨60, _⟩ => ⟨S_, .f32⟩
  | .hbm, ⟨61, _⟩ => ⟨S8x3136x18, .f32⟩
  | .hbm, ⟨62, _⟩ => ⟨S8x1x3136x18, .f32⟩
  | .hbm, ⟨63, _⟩ => ⟨S_, .f32⟩
  | .hbm, ⟨64, _⟩ => ⟨S8x1x3136x18, .f32⟩
  | .hbm, ⟨65, _⟩ => ⟨S8x1x3136x18, .f32⟩
  | .hbm, ⟨66, _⟩ => ⟨S8x96x3136x18, .f32⟩
  | .hbm, ⟨67, _⟩ => ⟨S8x96x3136x18, .f32⟩
  | .hbm, ⟨68, _⟩ => ⟨S8x96x3136x18, .f32⟩
  | .hbm, ⟨69, _⟩ => ⟨S_, .f32⟩
  | .hbm, ⟨70, _⟩ => ⟨S8x3136x18, .f32⟩
  | .hbm, ⟨71, _⟩ => ⟨S8x1x3136x18, .f32⟩
  | .hbm, ⟨72, _⟩ => ⟨S_, .f32⟩
  | .hbm, ⟨73, _⟩ => ⟨S8x1x3136x18, .f32⟩
  | .hbm, ⟨74, _⟩ => ⟨S8x1x3136x18, .f32⟩
  | .hbm, ⟨75, _⟩ => ⟨S8x96x3136x18, .f32⟩
  | .hbm, ⟨76, _⟩ => ⟨S_, .f32⟩
  | .hbm, ⟨77, _⟩ => ⟨S8x3136x18, .f32⟩
  | .hbm, ⟨78, _⟩ => ⟨S8x1x3136x18, .f32⟩
  | .hbm, ⟨79, _⟩ => ⟨S_, .f32⟩
  | .hbm, ⟨80, _⟩ => ⟨S8x1x3136x18, .f32⟩
  | .hbm, ⟨81, _⟩ => ⟨S8x1x3136x18, .f32⟩
  | .hbm, ⟨82, _⟩ => ⟨S8x1x3136x18, .f32⟩
  | .hbm, ⟨83, _⟩ => ⟨S8x1x3136x18, .f32⟩
  | .hbm, ⟨84, _⟩ => ⟨S_, .f32⟩
  | .hbm, ⟨85, _⟩ => ⟨S8x1x3136x18, .f32⟩
  | .hbm, ⟨86, _⟩ => ⟨S8x1x3136x18, .f32⟩
  | .hbm, ⟨87, _⟩ => ⟨S8x1x3136x18, .f32⟩
  | .hbm, ⟨88, _⟩ => ⟨S_, .f32⟩
  | .hbm, ⟨89, _⟩ => ⟨S8x1x3136x18, .f32⟩
  | .hbm, ⟨90, _⟩ => ⟨S8x1x3136x18, .f32⟩
  | .hbm, ⟨91, _⟩ => ⟨S8x1x3136x18, .f32⟩
  | .hbm, ⟨92, _⟩ => ⟨S8x1x3136x18, .f32⟩
  | .hbm, ⟨93, _⟩ => ⟨S8x1x3136x18, .f32⟩
  | .hbm, ⟨94, _⟩ => ⟨S_, .f32⟩
  | .hbm, ⟨95, _⟩ => ⟨S8x1x3136x18, .f32⟩
  | .hbm, ⟨96, _⟩ => ⟨S8x1x3136x18, .f32⟩
  | .hbm, ⟨97, _⟩ => ⟨S8x1x3136x18, .f32⟩
  | .hbm, ⟨98, _⟩ => ⟨S_, .f32⟩
  | .hbm, ⟨99, _⟩ => ⟨S8x1x3136x18, .f32⟩
  | .hbm, ⟨100, _⟩ => ⟨S8x1x3136x18, .f32⟩
  | .hbm, ⟨101, _⟩ => ⟨S_, .f32⟩
  | .hbm, ⟨102, _⟩ => ⟨S8x1x3136x18, .f32⟩
  | .hbm, ⟨103, _⟩ => ⟨S8x1x3136x18, .f32⟩
  | .hbm, ⟨104, _⟩ => ⟨S8x1x3136x18, .f32⟩
  | .hbm, ⟨105, _⟩ => ⟨S_, .f32⟩
  | .hbm, ⟨106, _⟩ => ⟨S8x1x3136x18, .f32⟩
  | .hbm, ⟨107, _⟩ => ⟨S8x1x3136x18, .f32⟩
  | .hbm, ⟨108, _⟩ => ⟨S8x1x3136x18, .f32⟩
  | .hbm, ⟨109, _⟩ => ⟨S8x1x3136x18, .f32⟩
  | .hbm, ⟨110, _⟩ => ⟨S_, .f32⟩
  | .hbm, ⟨111, _⟩ => ⟨S8x1x3136x18, .f32⟩
  | .hbm, ⟨112, _⟩ => ⟨S8x1x3136x18, .f32⟩
  | .hbm, ⟨113, _⟩ => ⟨S8x96x3136x18, .f32⟩
  | .hbm, ⟨114, _⟩ => ⟨S8x96x3136x18, .f32⟩
  | .hbm, ⟨115, _⟩ => ⟨S8x96x3136x18, .f32⟩
  | .hbm, ⟨116, _⟩ => ⟨S8x96x3136x18, .f32⟩
  | .hbm, ⟨117, _⟩ => ⟨S_, .f32⟩
  | .hbm, ⟨118, _⟩ => ⟨S8x96x3136, .f32⟩
  | .hbm, ⟨119, _⟩ => ⟨S_, .f32⟩
  | .hbm, ⟨120, _⟩ => ⟨S8x96x3136, .f32⟩
  | .hbm, ⟨121, _⟩ => ⟨S_, .f32⟩
  | .hbm, ⟨122, _⟩ => ⟨S8x96x3136, .f32⟩
  | .hbm, ⟨123, _⟩ => ⟨S8x96x3136, .f32⟩
  | .hbm, ⟨124, _⟩ => ⟨S8x96x3136, .f32⟩
  | .hbm, ⟨125, _⟩ => ⟨S8x96x3136x1, .f32⟩
  | _, _ => ⟨S8x96x3136x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_16 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_17 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_18 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_19 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_21 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_22 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_23 : Ref sig .tc := ⟨.hbm, 117, rfl⟩
abbrev main_v89 : Ref sig .tc := ⟨.hbm, 118, rfl⟩
abbrev main_cst_24 : Ref sig .tc := ⟨.hbm, 119, rfl⟩
abbrev main_v90 : Ref sig .tc := ⟨.hbm, 120, rfl⟩
abbrev main_cst_25 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]

class Facts₀ : Prop where
  shapeCasts_S8x96x3136x1_S8x96x3136 : S8x96x3136x1.ShapeCasts S8x96x3136
  slices_S2x8x3136x18_S1x8x3136x18_1_0_0_0 : S2x8x3136x18.Slices ![1, 0, 0, 0] S1x8x3136x18
  shapeCasts_S1x8x3136x18_S8x3136x18 : S1x8x3136x18.ShapeCasts S8x3136x18
  slices_S2x8x3136x18_S1x8x3136x18_0_0_0_0 : S2x8x3136x18.Slices ![0, 0, 0, 0] S1x8x3136x18
  bcast_S_S8x3136x18 : S_.BroadcastsInDim S8x3136x18 (![] : Fin 0 → Fin S8x3136x18.rank)
  bcast_S8x3136x18_S8x3136x18x1_0_1_2 : S8x3136x18.BroadcastsInDim S8x3136x18x1 (![0, 1, 2] : Fin 3 → Fin S8x3136x18x1.rank)
  reducesTo_S8x96x3136x18_S8x3136x18_d1 : S8x96x3136x18.ReducesTo [1] S8x3136x18
  h_S_ : 0 < S_.numel
  bcast_S8x3136x18_S8x1x3136x18_0_2_3 : S8x3136x18.BroadcastsInDim S8x1x3136x18 (![0, 2, 3] : Fin 3 → Fin S8x1x3136x18.rank)
  bcast_S_S8x1x3136x18 : S_.BroadcastsInDim S8x1x3136x18 (![] : Fin 0 → Fin S8x1x3136x18.rank)
  bcast_S8x1x3136x18_S8x96x3136x18_0_1_2_3 : S8x1x3136x18.BroadcastsInDim S8x96x3136x18 (![0, 1, 2, 3] : Fin 4 → Fin S8x96x3136x18.rank)
  reducesTo_S8x96x3136x18_S8x96x3136_d3 : S8x96x3136x18.ReducesTo [3] S8x96x3136
  bcast_S8x96x3136_S8x96x3136x1_0_1_2 : S8x96x3136.BroadcastsInDim S8x96x3136x1 (![0, 1, 2] : Fin 3 → Fin S8x96x3136x1.rank)
  gather_S8x96x3136_S8x3136x18x1_S8x96x3136x18_1_2_0_0_2_3_1961_wf : GatherDims.WF S8x96x3136 S8x3136x18x1 S8x96x3136x18 [1] [2] [0] [2] [0] 3 ![1, 96, 1]

variable [Facts₀]

def gather_S8x96x3136_S8x3136x18x1_S8x96x3136x18_1_2_0_0_2_3_1961 : GatherDims S8x96x3136 S8x3136x18x1 S8x96x3136x18 where
  offsetDims := [1]
  collapsedSliceDims := [2]
  operandBatchingDims := [0]
  startIndicesBatchingDims := [0]
  startIndexMap := [2]
  indexVectorDim := 3
  sliceSizes := ![1, 96, 1]
  wf := gather_S8x96x3136_S8x3136x18x1_S8x96x3136x18_1_2_0_0_2_3_1961_wf

class Facts : Prop extends Facts₀ where

variable [Facts]
-- ==== Proof.Spec.lean ====
/-
  The mathematics both programs compute, as plain functions on the extended reals.

  For a batch b, a centre node n and a neighbour slot k, an edge joins the node i = idxI(b,n,k) to the node
  j = idxJ(b,n,k). Over the 96 channels c the edge has the feature rows x(b,·,i), x(b,·,j) and the weight rows
  xp(b,·,i), xp(b,·,j). From the feature rows come the channel means, variances and covariance, and from those the
  structural-similarity factor
      sff = 1 - ((2·mi·mj + ε)/(mi² + mj² + ε)) · ((2·cov + ε)/(vi + vj + ε)).
  The result at (b, c, n) sums over the 18 slots: the weights of both ends, and |xp_i - xp_j| scaled by sff.
  The kernel sums the two weights slot by slot; the reference sums each end and adds the sums: the same number in any
  commutative monoid (`out_forms`).
-/
import Idealize.ShloMosaic.PureOps.Ideal
import Idealize.ShloMosaic.PureOps.Ideal.Laws
import Idealize.ShloMosaic.Lib.ValueIdx

noncomputable section

open scoped BigOperators

namespace Cert.EdgeStat

open Idealize.ShloMosaic Idealize.ShloMosaic.ValueIdx

/-- The mean over the 96 channels: the sum divided by the float 96. -/
def chMean (v : Fin 96 → EReal) : EReal :=
  Ideal.div (∑ c : Fin 96, v c) (Ideal.ofBits .f32 0x42C00000#32)

/-- The similarity factor of an edge from the feature rows of its two ends. -/
def sff (xi xj : Fin 96 → EReal) : EReal :=
  Ideal.ofBits .f32 0x3F800000#32
    - Ideal.div (Ideal.ofBits .f32 0x40000000#32 * chMean xi * chMean xj + Ideal.ofBits .f32 0x358637BD#32)
        (chMean xi * chMean xi + chMean xj * chMean xj + Ideal.ofBits .f32 0x358637BD#32)
      * Ideal.div
        (Ideal.ofBits .f32 0x40000000#32 * (chMean (fun c => xi c * xj c) - chMean xi * chMean xj)
          + Ideal.ofBits .f32 0x358637BD#32)
        (chMean (fun c => (xi c - chMean xi) * (xi c - chMean xi))
          + chMean (fun c => (xj c - chMean xj) * (xj c - chMean xj)) + Ideal.ofBits .f32 0x358637BD#32)

/-- The result over the 18 slots as the kernel adds it up: both ends' weights slot by slot, then the scaled gaps. -/
def outSlotwise (a b s : Fin 18 → EReal) : EReal :=
  (∑ k : Fin 18, (a k + b k)) + ∑ k : Fin 18, max (a k - b k) (-(a k - b k)) * s k

/-- The same as the reference adds it up: each end's weights summed, the two sums added, then the scaled gaps. -/
def outEndwise (a b s : Fin 18 → EReal) : EReal :=
  ((∑ k : Fin 18, a k) + ∑ k : Fin 18, b k) + ∑ k : Fin 18, max (a k - b k) (-(a k - b k)) * s k

/-- A sum of sums is the sum of the two sums: the two ways of adding up are one number. -/
theorem out_forms (a b s : Fin 18 → EReal) : outSlotwise a b s = outEndwise a b s := by
  unfold outSlotwise outEndwise
  rw [Finset.sum_add_distrib]

/-- The node a 32-bit index word names, reduced into the 3136 nodes (the identity on a word in range). -/
def node (w : BitVec 32) : Fin 3136 := ⟨w.toNat % 3136, Nat.mod_lt _ (by norm_num)⟩

/-- A word that is a non-negative signed integer below 3136 is, unsigned, below 3136 too. -/
theorem toNat_lt_of_range {w : BitVec 32} (h0 : 0 ≤ w.toInt) (h1 : w.toInt < 3136) : w.toNat < 3136 := by
  have := BitVec.toInt_eq_toNat_cond w
  split_ifs at this <;> omega

theorem node_val {w : BitVec 32} (h : w.toNat < 3136) : (node w).val = w.toNat := Nat.mod_eq_of_lt h

/-! ## The result, from the argument arrays -/

abbrev SX : Shape := ⟨4, ![8, 96, 3136, 1]⟩
abbrev SE : Shape := ⟨4, ![2, 8, 3136, 18]⟩

/-- The result at batch b, channel c, node n: over the 18 slots, the edge from the node `ei(1,b,n,k)` names to the
    node `ei(0,b,n,k)` names. -/
def resultAt (x xp : SX.Idx → EReal) (ei : SE.Idx → BitVec 32) (b : Fin 8) (c : Fin 96) (n : Fin 3136) : EReal :=
  outEndwise
    (fun k => xp (ix4 b c (node (ei (ix4 (1 : Fin 2) b n k))) (0 : Fin 1)))
    (fun k => xp (ix4 b c (node (ei (ix4 (0 : Fin 2) b n k))) (0 : Fin 1)))
    (fun k => sff (fun c' => x (ix4 b c' (node (ei (ix4 (1 : Fin 2) b n k))) (0 : Fin 1)))
                  (fun c' => x (ix4 b c' (node (ei (ix4 (0 : Fin 2) b n k))) (0 : Fin 1))))

/-! ## The arrays the kernel is launched on, from the argument arrays -/

/-- Row r, column col of batch b's table: the 96 feature channels then the 96 weight channels of node r, and zero
    rows for the 64 padding nodes 3136 … 3199. -/
def tableAt (x xp : SX.Idx → EReal) (b : Fin 8) (r : Fin 3200) (col : Fin 192) : EReal :=
  if hr : r.val < 3136 then
    (if hc : col.val < 96 then x (ix4 b (⟨col.val, hc⟩ : Fin 96) (⟨r.val, hr⟩ : Fin 3136) (0 : Fin 1))
     else xp (ix4 b (⟨col.val - 96, by have := col.isLt; omega⟩ : Fin 96) (⟨r.val, hr⟩ : Fin 3136) (0 : Fin 1)))
  else 0

/-- Entry q of batch b's flattened index column for end s: slot q % 18 of node q / 18, and the zero word for the
    padding nodes. -/
def flatIdxAt (ei : SE.Idx → BitVec 32) (s : Fin 2) (b : Fin 8) (q : Fin 57600) : BitVec 32 :=
  if h : q.val / 18 < 3136 then
    ei (ix4 s b (⟨q.val / 18, h⟩ : Fin 3136) (⟨q.val % 18, Nat.mod_lt _ (by norm_num)⟩ : Fin 18))
  else 0#32

end Cert.EdgeStat

end
-- ==== Proof.BodyGather.lean ====
/-
  The gather inside the kernel body. Row (nl, k) of the one-hot matrix has a one in the column whose number is the
  index word and zeros elsewhere, so its product with a table block is that block's row; the body adds the products
  with the high part and with the remainder.
-/
import proofs.«419923_j63213328662785_3_alg».proof.Proof.Gen.KernelIdeal.Frame
import proofs.«419923_j63213328662785_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.BodyGather

open Idealize.ShloMosaic Idealize.ShloMosaic.TcCoe Idealize.ShloMosaic.ValueIdx Idealize.SL.Sem
open Cert.KernelIdeal Cert.KernelIdeal.Gen Cert.EdgeStat

/-! ## A 1152 × 3200 by 3200 × 192 product into zero, entry by entry -/

/-- Entry (p, col) of the product accumulated into zero is the sum over the 3200 contracted positions c of
    A(p, c) · B(c, col): the contraction index has one coordinate, and the left and right operand indices at
    (p, col) and c are (p, c) and (c, col). -/
theorem matmul_at {φ₁ φ₂ : FTy} (A : FVec Ideal S1152x3200 φ₁) (B : FVec Ideal S3200x192 φ₂) (p : Fin 1152) (col : Fin 192) :
    matmul dot_S1152x3200_S3200x192_S1152x192_1_0_0_1_n_n none A B (constant (F := Ideal) S1152x192 .f32 0x00000000#32) (ix2 p col)
      = ∑ c : Fin 3200, A (ix2 p c) * B (ix2 c col) := by
  show FloatOps.matmul _ none A B _ (ix2 p col) = _
  rw [Ideal.matmul_constant_zero_apply,
    ← Equiv.sum_comp (contrEquiv1 dot_S1152x3200_S3200x192_S1152x192_1_0_0_1_n_n 3200 rfl rfl).symm]
  refine Finset.sum_congr rfl fun c _ => ?_
  have c2 := contrEquiv1_symm_val dot_S1152x3200_S3200x192_S1152x192_1_0_0_1_n_n 3200 rfl rfl c
  have l2 : dot_S1152x3200_S3200x192_S1152x192_1_0_0_1_n_n.lhsIdx (ix2 p col) ((contrEquiv1 _ 3200 rfl rfl).symm c) = ix2 p c := by
    funext ax; apply Fin.ext
    match ax with
    | ⟨0, _⟩ => simp [DotDims.lhsIdx, dot_S1152x3200_S3200x192_S1152x192_1_0_0_1_n_n]; rfl
    | ⟨1, _⟩ => simp [DotDims.lhsIdx, dot_S1152x3200_S3200x192_S1152x192_1_0_0_1_n_n]; exact c2
  have r2 : dot_S1152x3200_S3200x192_S1152x192_1_0_0_1_n_n.rhsIdx (ix2 p col) ((contrEquiv1 _ 3200 rfl rfl).symm c) = ix2 c col := by
    funext ax; apply Fin.ext
    match ax with
    | ⟨0, _⟩ => simp [DotDims.rhsIdx, dot_S1152x3200_S3200x192_S1152x192_1_0_0_1_n_n]; exact c2
    | ⟨1, _⟩ => simp [DotDims.rhsIdx, dot_S1152x3200_S3200x192_S1152x192_1_0_0_1_n_n]; rfl
  rw [l2, r2]

/-! ## The one-hot matrix -/

/-- Two 32-bit words of numbers below 3200 agree only when the numbers do: both are far below 2³². -/
theorem word_inj {a b : Nat} (ha : a < 3200) (hb : b < 3200) (h : BitVec.ofNat 32 a = BitVec.ofNat 32 b) : a = b := by
  have e := congrArg BitVec.toNat h
  rw [BitVec.toNat_ofNat, BitVec.toNat_ofNat] at e
  have p : (2 : Nat) ^ 32 = 4294967296 := by norm_num
  rw [p] at e
  omega

/-- The set bit, widened to 32 bits and read signed, is the integer 1 … -/
theorem bit_one_val : (((1#1 : BitVec 1).setWidth 32).toInt) = 1 := by decide
/-- … and the clear bit the integer 0. -/
theorem bit_zero_val : (((0#1 : BitVec 1).setWidth 32).toInt) = 0 := by decide

/-- The one-hot matrix of an index column: entry (p, c) is the float of the bit "c is the word in row p". -/
def onehot (idx : IVec S1152x1 32) : FVec Ideal S1152x3200 .bf16 :=
  truncf .bf16 (sitofp (F := Ideal) .f32 (extui 32 (cmpi .eq (iota .tc S1152x3200 32 [1] iota_S1152x3200_d1_w32)
    (broadcastTo S1152x3200 idx broadcasts_S1152x1_S1152x3200)) natLt_1_32)) bitsLt_bf16_f32

/-- When row p's index word is the word of r (r below 3200), entry (p, c) is 1 at c = r and 0 elsewhere: the column
    counter at (p, c) is the word of c, the broadcast index column at (p, c) is row p's word, the comparison bit is set
    exactly when the two words agree, which for numbers below 3200 is when c = r, and the conversions keep 1 and 0. -/
theorem onehot_apply (idx : IVec S1152x1 32) (p : Fin 1152) (c r : Fin 3200)
    (h : idx (ix2 p (0 : Fin 1)) = BitVec.ofNat 32 r.val) :
    onehot idx (ix2 p c) = if c = r then (1 : EReal) else 0 := by
  unfold onehot
  rw [truncf_apply, sitofp_apply, extui_apply]
  show (((((IntOp.cmpi .eq (iota .tc S1152x3200 32 [1] iota_S1152x3200_d1_w32 (ix2 p c))
      (broadcastTo S1152x3200 idx broadcasts_S1152x1_S1152x3200 (ix2 p c))).setWidth 32).toInt : ℝ) : EReal)) = _
  rw [iota_single_apply, broadcastTo_apply idx broadcasts_S1152x1_S1152x3200 (ix2 p c) (ix2 p (0 : Fin 1))
    (fun a => match a with | ⟨0, _⟩ => rfl | ⟨1, _⟩ => rfl), h]
  show (((((IntOp.cmpi .eq (BitVec.ofNat 32 c.val) (BitVec.ofNat 32 r.val)).setWidth 32).toInt : ℝ) : EReal)) = _
  by_cases hc : c = r
  · subst hc
    rw [if_pos rfl, IntOp.cmpi_eq.mpr rfl, bit_one_val]
    norm_num
  · rw [if_neg hc]
    have hne : IntOp.cmpi .eq (BitVec.ofNat 32 c.val) (BitVec.ofNat 32 r.val) ≠ 1#1 := fun h1 =>
      hc (Fin.ext (word_inj c.isLt r.isLt (IntOp.cmpi_eq.mp h1)))
    rcases BitVec.eq_zero_or_eq_one (IntOp.cmpi .eq (BitVec.ofNat 32 c.val) (BitVec.ofNat 32 r.val)) with h0 | h1
    · rw [h0, bit_zero_val]
      norm_num
    · exact absurd h1 hne

/-- A row of the one-hot matrix times a table is the table's row the index word names: in the sum over c only the
    term c = r survives, 1 · t = t, and every other term is 0 · t = 0 on the extended reals. -/
theorem onehot_matmul_at {φ : FTy} (idx : IVec S1152x1 32) (tbl : FVec Ideal S3200x192 φ) (p : Fin 1152) (col : Fin 192)
    (r : Fin 3200) (h : idx (ix2 p (0 : Fin 1)) = BitVec.ofNat 32 r.val) :
    matmul dot_S1152x3200_S3200x192_S1152x192_1_0_0_1_n_n none (onehot idx) tbl
      (constant (F := Ideal) S1152x192 .f32 0x00000000#32) (ix2 p col) = tbl (ix2 r col) := by
  rw [matmul_at, Finset.sum_eq_single r]
  · rw [onehot_apply idx p r r h, if_pos rfl, one_mul]
  · intro c _ hc
    rw [onehot_apply idx p c r h, if_neg hc, zero_mul]
  · intro hr
    exact absurd (Finset.mem_univ r) hr

/-! ## The body's gather -/

/-- The gather as one expression: the 1152 × 192 sum of the two products, viewed as 64 × 18 × 192. -/
theorem pay4_form (v0 : Vec Ideal S1x1152x1 .i32) (v4 v6 : Vec Ideal S1x3200x192 .bf16) :
    k0_pay4 (F := Ideal) v0 v4 v6
      = shapeCast S64x18x192
          (addf
            (matmul dot_S1152x3200_S3200x192_S1152x192_1_0_0_1_n_n none
              (onehot (shapeCast S1152x1 v0 shapeCasts_S1x1152x1_S1152x1)) (k0_pay2 v4)
              (constant (F := Ideal) S1152x192 .f32 0x00000000#32))
            (matmul dot_S1152x3200_S3200x192_S1152x192_1_0_0_1_n_n none
              (onehot (shapeCast S1152x1 v0 shapeCasts_S1x1152x1_S1152x1)) (k0_pay3 v6)
              (constant (F := Ideal) S1152x192 .f32 0x00000000#32)))
          shapeCasts_S1152x192_S64x18x192 := rfl

/-- Row r, column col of the two table blocks, added. -/
def rowAt (v4 v6 : Vec Ideal S1x3200x192 .bf16) (r : Fin 3200) (col : Fin 192) : EReal :=
  v4 (ix3 (0 : Fin 1) r col) + v6 (ix3 (0 : Fin 1) r col)

/-- The centre gather at (nl, k, col): the row the index word names. -/
theorem gathered_i (v0 : Vec Ideal S1x1152x1 .i32) (v4 v6 : Vec Ideal S1x3200x192 .bf16) (nl : Fin 64) (k : Fin 18)
    (col : Fin 192) (r : Fin 3200)
    (h : v0 (ix3 (0 : Fin 1) (⟨nl.val * 18 + k.val, by have := nl.isLt; have := k.isLt; omega⟩ : Fin 1152) (0 : Fin 1))
      = BitVec.ofNat 32 r.val) :
    k0_pay4 (F := Ideal) v0 v4 v6 (ix3 nl k col) = rowAt v4 v6 r col := by
  -- the index column without its leading unit axis reads the same word at row nl·18 + k
  have hidx : (shapeCast S1152x1 v0 shapeCasts_S1x1152x1_S1152x1 : IVec S1152x1 32)
      (ix2 (⟨nl.val * 18 + k.val, by have := nl.isLt; have := k.isLt; omega⟩ : Fin 1152) (0 : Fin 1)) = BitVec.ofNat 32 r.val :=
    (shapeCast_1ab_ab_apply v0 shapeCasts_S1x1152x1_S1152x1 _ _).trans h
  rw [pay4_form]
  -- (nl, k, col) of the 64 × 18 × 192 view sits at row-major position (nl·18 + k)·192 + col, as (nl·18 + k, col) does
  refine (shapeCast_apply _ shapeCasts_S1152x192_S64x18x192 (ix3 nl k col)
    (ix2 (⟨nl.val * 18 + k.val, by have := nl.isLt; have := k.isLt; omega⟩ : Fin 1152) col) ?_).trans ?_
  · rw [Shape.rowMajor_val_two, Shape.rowMajor_val_three]
    rfl
  · rw [addf_apply, onehot_matmul_at _ _ _ _ r hidx, onehot_matmul_at _ _ _ _ r hidx]
    unfold rowAt k0_pay2 k0_pay3
    rw [shapeCast_1ab_ab_apply, shapeCast_1ab_ab_apply]

/-- The neighbour gather likewise. -/
theorem gathered_j (v2 : Vec Ideal S1x1152x1 .i32) (v4 v6 : Vec Ideal S1x3200x192 .bf16) (nl : Fin 64) (k : Fin 18)
    (col : Fin 192) (r : Fin 3200)
    (h : v2 (ix3 (0 : Fin 1) (⟨nl.val * 18 + k.val, by have := nl.isLt; have := k.isLt; omega⟩ : Fin 1152) (0 : Fin 1))
      = BitVec.ofNat 32 r.val) :
    k0_pay5 (F := Ideal) v2 v4 v6 (ix3 nl k col) = rowAt v4 v6 r col :=
  -- the neighbour gather is the same expression in the other index column
  gathered_i v2 v4 v6 nl k col r h

end Cert.KernelIdeal.BodyGather

end
-- ==== Proof.BodyStats.lean ====
/-
  The arithmetic of the kernel body after the two gathers: per edge the channel means, variances and covariance of
  the feature halves, the similarity factor, and per channel the sum over the 18 slots, read at one entry of the
  stored [1, 64, 128] block (the first 96 lanes; the last 32 are zero padding that the host slices away).
-/
import proofs.«419923_j63213328662785_3_alg».proof.Proof.Gen.KernelIdeal.Frame
import proofs.«419923_j63213328662785_3_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.BodyStats

open Idealize.ShloMosaic Idealize.ShloMosaic.TcCoe Idealize.ShloMosaic.ValueIdx Idealize.SL.Sem
open Cert.KernelIdeal Cert.KernelIdeal.Gen Cert.EdgeStat

/-- The sum over the 96 lanes of a [64, 18, 96] block, read at (nl, k). -/
theorem laneSum_at (src : FVec Ideal S64x18x96 .f32) (h : S64x18x96.Reduces [2] S64x18) (hφ : FKind.Formats .f32)
    (hacc : (0x00000000#32 : BitVec 32) = FKind.add.neutral .f32 hφ) (nl : Fin 64) (k : Fin 18) :
    multiReduction .add [2] S64x18 src 0x00000000#32 h hφ hacc (ix2 nl k) = ∑ c : Fin 96, src (ix3 nl k c) := by
  refine (Ideal.multiReduction_add_single src 0x00000000#32 h hφ hacc (ix2 nl k)).trans ?_
  refine Finset.sum_congr rfl fun c _ => congrArg src ?_
  funext a
  match a with
  | ⟨0, _⟩ => exact Fin.ext rfl
  | ⟨1, _⟩ => exact Fin.ext rfl
  | ⟨2, _⟩ => exact Fin.ext rfl

/-- The sum over the 18 slots of a [64, 18, 96] block, read at (nl, l). -/
theorem slotSum_at (src : FVec Ideal S64x18x96 .f32) (h : S64x18x96.Reduces [1] S64x96) (hφ : FKind.Formats .f32)
    (hacc : (0x00000000#32 : BitVec 32) = FKind.add.neutral .f32 hφ) (nl : Fin 64) (l : Fin 96) :
    multiReduction .add [1] S64x96 src 0x00000000#32 h hφ hacc (ix2 nl l) = ∑ k : Fin 18, src (ix3 nl k l) := by
  refine (Ideal.multiReduction_add_single src 0x00000000#32 h hφ hacc (ix2 nl l)).trans ?_
  refine Finset.sum_congr rfl fun k _ => congrArg src ?_
  funext a
  match a with
  | ⟨0, _⟩ => exact Fin.ext rfl
  | ⟨1, _⟩ => exact Fin.ext rfl
  | ⟨2, _⟩ => exact Fin.ext rfl

/-- The cast [64, 18] → [64, 18, 1] keeps the entry at (nl, k). -/
theorem keep_at {α : Type} (v : S64x18.Idx → α) (h : S64x18.ShapeCasts S64x18x1) (nl : Fin 64) (k : Fin 18) (u : Fin 1) :
    shapeCast S64x18x1 v h (ix3 nl k u) = v (ix2 nl k) :=
  shapeCast_apply v h _ _ (by
    have hu : u.val = 0 := by omega
    rw [Shape.rowMajor_val_two, Shape.rowMajor_val_three]
    show nl.val * 18 + k.val = (nl.val * 18 + k.val) * 1 + u.val
    rw [hu, Nat.mul_one, Nat.add_zero])

/-- The broadcast [64, 18, 1] → [64, 18, 96] repeats the entry at (nl, k, 0) over the lanes. -/
theorem bcast_at {α : Type} (v : S64x18x1.Idx → α) (h : S64x18x1.Broadcasts S64x18x96) (nl : Fin 64) (k : Fin 18) (c : Fin 96) :
    broadcastTo S64x18x96 v h (ix3 nl k c) = v (ix3 nl k (0 : Fin 1)) := by
  refine broadcastTo_apply v h (ix3 nl k c) (ix3 nl k (0 : Fin 1)) fun ax => ?_
  match ax with
  | ⟨0, _⟩ => rfl
  | ⟨1, _⟩ => rfl
  | ⟨2, _⟩ => rfl

/-- The first 96 lanes of a [64, 18, 192] block. -/
theorem lo_at {α : Type} (g : S64x18x192.Idx → α) (h : S64x18x192.Slices ![0, 0, 0] S64x18x96) (nl : Fin 64) (k : Fin 18) (c : Fin 96) :
    extractStridedSlice S64x18x96 ![0, 0, 0] g h (ix3 nl k c) = g (ix3 nl k (⟨c.val, by have := c.isLt; omega⟩ : Fin 192)) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm)

/-- The last 96 lanes of a [64, 18, 192] block. -/
theorem hi_at {α : Type} (g : S64x18x192.Idx → α) (h : S64x18x192.Slices ![0, 0, 96] S64x18x96) (nl : Fin 64) (k : Fin 18) (c : Fin 96) :
    extractStridedSlice S64x18x96 ![0, 0, 96] g h (ix3 nl k c) = g (ix3 nl k (⟨96 + c.val, by have := c.isLt; omega⟩ : Fin 192)) :=
  extractStridedSlice_apply _ _ _ _ _ (fun ax => by
    match ax with
    | ⟨0, _⟩ => exact (Nat.zero_add _).symm
    | ⟨1, _⟩ => exact (Nat.zero_add _).symm
    | ⟨2, _⟩ => rfl)

/-! ## The statistics of one edge as numbers -/

/-- The similarity factor from the two means, the two variances and the mean of the products. -/
def sffOf (mi mj vi vj e : EReal) : EReal :=
  Ideal.ofBits .f32 0x3F800000#32
    - Ideal.div (Ideal.ofBits .f32 0x40000000#32 * mi * mj + Ideal.ofBits .f32 0x358637BD#32)
        (mi * mi + mj * mj + Ideal.ofBits .f32 0x358637BD#32)
      * Ideal.div (Ideal.ofBits .f32 0x40000000#32 * (e - mi * mj) + Ideal.ofBits .f32 0x358637BD#32)
        (vi + vj + Ideal.ofBits .f32 0x358637BD#32)

theorem sff_eq (xi xj : Fin 96 → EReal) :
    sff xi xj = sffOf (chMean xi) (chMean xj) (chMean (fun c => (xi c - chMean xi) * (xi c - chMean xi)))
      (chMean (fun c => (xj c - chMean xj) * (xj c - chMean xj))) (chMean (fun c => xi c * xj c)) := rfl

/-- The mean over the lanes of the squared distance of a block from a per-row number, kept as a [64, 18, 1] column. -/
def varOf (x : FVec Ideal S64x18x96 .f32) (m : FVec Ideal S64x18x1 .f32) : FVec Ideal S64x18x1 .f32 :=
  divf (shapeCast S64x18x1
      (multiReduction .add [2] S64x18
        (mulf (subf x (broadcastTo S64x18x96 m broadcasts_S64x18x1_S64x18x96))
          (subf x (broadcastTo S64x18x96 m broadcasts_S64x18x1_S64x18x96)))
        0x00000000#32 reduces_S64x18x96_S64x18 (.inl rfl) rfl)
      shapeCasts_S64x18_S64x18x1)
    (broadcast S64x18x1 (Scalar.ofBits .f32 0x42C00000#32))

/-- The mean over the lanes of the product of two blocks, kept as a [64, 18, 1] column. -/
def prodOf (x y : FVec Ideal S64x18x96 .f32) : FVec Ideal S64x18x1 .f32 :=
  divf (shapeCast S64x18x1
      (multiReduction .add [2] S64x18 (mulf x y) 0x00000000#32 reduces_S64x18x96_S64x18 (.inl rfl) rfl)
      shapeCasts_S64x18_S64x18x1)
    (broadcast S64x18x1 (Scalar.ofBits .f32 0x42C00000#32))

theorem varOf_at (x : FVec Ideal S64x18x96 .f32) (m : FVec Ideal S64x18x1 .f32) (nl : Fin 64) (k : Fin 18) (u : Fin 1) :
    varOf x m (ix3 nl k u)
      = chMean (fun c => (x (ix3 nl k c) - m (ix3 nl k (0 : Fin 1))) * (x (ix3 nl k c) - m (ix3 nl k (0 : Fin 1)))) := by
  unfold varOf
  refine congrArg (fun z => Ideal.div z (Ideal.ofBits .f32 0x42C00000#32)) ?_
  refine (keep_at _ _ nl k u).trans ((laneSum_at _ _ _ _ nl k).trans ?_)
  refine Finset.sum_congr rfl fun c _ => ?_
  show (x (ix3 nl k c) - broadcastTo S64x18x96 m _ (ix3 nl k c)) * (x (ix3 nl k c) - broadcastTo S64x18x96 m _ (ix3 nl k c)) = _
  rw [bcast_at]

theorem prodOf_at (x y : FVec Ideal S64x18x96 .f32) (nl : Fin 64) (k : Fin 18) (u : Fin 1) :
    prodOf x y (ix3 nl k u) = chMean (fun c => x (ix3 nl k c) * y (ix3 nl k c)) := by
  unfold prodOf
  refine congrArg (fun z => Ideal.div z (Ideal.ofBits .f32 0x42C00000#32)) ?_
  exact (keep_at _ _ nl k u).trans (laneSum_at _ _ _ _ nl k)

/-- The factor's payload read at (nl, k, c): the similarity factor of the five numbers of row (nl, k). -/
theorem pay14_read (xi xj : FVec Ideal S64x18x96 .f32) (mi sj c96 : FVec Ideal S64x18x1 .f32) (nl : Fin 64) (k : Fin 18) (c : Fin 96) :
    k0_pay14 xi xj mi sj c96 (ix3 nl k c)
      = sffOf (mi (ix3 nl k (0 : Fin 1))) (Ideal.div (sj (ix3 nl k (0 : Fin 1))) (c96 (ix3 nl k (0 : Fin 1))))
          (varOf xi mi (ix3 nl k (0 : Fin 1))) (varOf xj (divf sj c96) (ix3 nl k (0 : Fin 1))) (prodOf xi xj (ix3 nl k (0 : Fin 1))) := by
  unfold k0_pay14
  exact (bcast_at _ _ nl k c).trans rfl

/-! ## The stored block read at one entry -/

/-- Entry (0, nl, l), l below 96, of the stored [1, 64, 128] block: the two slot sums. -/
theorem pay1_read (a b g s : FVec Ideal S64x18x96 .f32) (nl : Fin 64) (l : Fin 96) :
    k0_pay1 a b g s (ix3 (0 : Fin 1) nl (⟨l.val, by have := l.isLt; omega⟩ : Fin 128))
      = (∑ k : Fin 18, (a (ix3 nl k l) + b (ix3 nl k l))) + ∑ k : Fin 18, g (ix3 nl k l) * s (ix3 nl k l) := by
  unfold k0_pay1
  refine (shapeCast_ab_1ab_apply _ _ (0 : Fin 1) nl _).trans ?_
  refine (concatenate_pair_apply_left (t := S64x128) (s₁ := S64x96) (s₂ := S64x32) (1 : Fin 2) _ _ _ (ix2 nl (⟨l.val, by have := l.isLt; omega⟩ : Fin 128)) rfl (ix2 nl l)
    (fun ax => by
      match ax with
      | ⟨0, _⟩ => rfl
      | ⟨1, _⟩ => rfl)).trans ?_
  show multiReduction .add [1] S64x96 (addf a b) 0x00000000#32 _ _ _ (ix2 nl l)
      + multiReduction .add [1] S64x96 (mulf g s) 0x00000000#32 _ _ _ (ix2 nl l) = _
  exact congrArg₂ (fun p q : EReal => p + q) (slotSum_at (addf a b) _ _ _ nl l) (slotSum_at (mulf g s) _ _ _ nl l)

/-- The gap payload at an entry: the absolute difference as the larger of the difference and its negative. -/
theorem pay13_read (a b : FVec Ideal S64x18x96 .f32) (i : S64x18x96.Idx) :
    k0_pay13 a b i = max (a i - b i) (-(a i - b i)) := rfl

theorem pay6_read (v0 : Vec Ideal S1x1152x1 .i32) (v4 v6 : Vec Ideal S1x3200x192 .bf16) (nl : Fin 64) (k : Fin 18) (c : Fin 96) :
    k0_pay6 v0 v4 v6 (ix3 nl k c) = k0_pay4 (F := Ideal) v0 v4 v6 (ix3 nl k (⟨c.val, by have := c.isLt; omega⟩ : Fin 192)) := by
  unfold k0_pay6; exact lo_at _ _ nl k c

theorem pay7_read (v0 : Vec Ideal S1x1152x1 .i32) (v4 v6 : Vec Ideal S1x3200x192 .bf16) (nl : Fin 64) (k : Fin 18) (c : Fin 96) :
    k0_pay7 v0 v4 v6 (ix3 nl k c) = k0_pay4 (F := Ideal) v0 v4 v6 (ix3 nl k (⟨96 + c.val, by have := c.isLt; omega⟩ : Fin 192)) := by
  unfold k0_pay7; exact hi_at _ _ nl k c

theorem pay8_read (v2 : Vec Ideal S1x1152x1 .i32) (v4 v6 : Vec Ideal S1x3200x192 .bf16) (nl : Fin 64) (k : Fin 18) (c : Fin 96) :
    k0_pay8 v2 v4 v6 (ix3 nl k c) = k0_pay5 (F := Ideal) v2 v4 v6 (ix3 nl k (⟨c.val, by have := c.isLt; omega⟩ : Fin 192)) := by
  unfold k0_pay8; exact lo_at _ _ nl k c

theorem pay9_read (v2 : Vec Ideal S1x1152x1 .i32) (v4 v6 : Vec Ideal S1x3200x192 .bf16) (nl : Fin 64) (k : Fin 18) (c : Fin 96) :
    k0_pay9 v2 v4 v6 (ix3 nl k c) = k0_pay5 (F := Ideal) v2 v4 v6 (ix3 nl k (⟨96 + c.val, by have := c.isLt; omega⟩ : Fin 192)) := by
  unfold k0_pay9; exact hi_at _ _ nl k c

/-- The first end's mean column at (nl, k): the mean of its feature lanes. -/
theorem pay10_read (v0 : Vec Ideal S1x1152x1 .i32) (v4 v6 : Vec Ideal S1x3200x192 .bf16) (nl : Fin 64) (k : Fin 18) (u : Fin 1) :
    k0_pay10 v0 v4 v6 (ix3 nl k u) = chMean (fun c => k0_pay6 (F := Ideal) v0 v4 v6 (ix3 nl k c)) := by
  unfold k0_pay10
  refine congrArg (fun z => Ideal.div z (Ideal.ofBits .f32 0x42C00000#32)) ?_
  exact (keep_at _ _ nl k u).trans (laneSum_at _ _ _ _ nl k)

/-- The second end's sum column at (nl, k): the sum of its feature lanes, not yet divided. -/
theorem pay11_read (v2 : Vec Ideal S1x1152x1 .i32) (v4 v6 : Vec Ideal S1x3200x192 .bf16) (nl : Fin 64) (k : Fin 18) (u : Fin 1) :
    k0_pay11 v2 v4 v6 (ix3 nl k u) = ∑ c : Fin 96, k0_pay8 (F := Ideal) v2 v4 v6 (ix3 nl k c) := by
  unfold k0_pay11
  exact (keep_at _ _ nl k u).trans (laneSum_at _ _ _ _ nl k)

theorem pay12_read (i : S64x18x1.Idx) : k0_pay12 (F := Ideal) i = Ideal.ofBits .f32 0x42C00000#32 := rfl

/-- The factor's payload on the kernel's own operands is the similarity factor of the two feature rows. -/
theorem pay14_sff (xi xj : FVec Ideal S64x18x96 .f32) (mi sj c96 : FVec Ideal S64x18x1 .f32) (nl : Fin 64) (k : Fin 18) (c : Fin 96)
    (hm : mi (ix3 nl k (0 : Fin 1)) = chMean (fun c => xi (ix3 nl k c)))
    (hs : sj (ix3 nl k (0 : Fin 1)) = ∑ c : Fin 96, xj (ix3 nl k c))
    (h96 : c96 (ix3 nl k (0 : Fin 1)) = Ideal.ofBits .f32 0x42C00000#32) :
    k0_pay14 xi xj mi sj c96 (ix3 nl k c) = sff (fun c => xi (ix3 nl k c)) (fun c => xj (ix3 nl k c)) := by
  have hj : Ideal.div (sj (ix3 nl k (0 : Fin 1))) (c96 (ix3 nl k (0 : Fin 1))) = chMean (fun c => xj (ix3 nl k c)) := by
    rw [hs, h96]; rfl
  have hdj : (divf sj c96) (ix3 nl k (0 : Fin 1)) = chMean (fun c => xj (ix3 nl k c)) := hj
  rw [pay14_read, sff_eq, varOf_at, varOf_at, prodOf_at, hm, hj, hdj]

/-- The stored block at local node nl, channel l, from the two gathered [64, 18, 192] values. -/
theorem stats_at (v0 v2 : Vec Ideal S1x1152x1 .i32) (v4 v6 : Vec Ideal S1x3200x192 .bf16) (nl : Fin 64) (l : Fin 96) :
    k0_pay1 (F := Ideal) (k0_pay7 v0 v4 v6) (k0_pay9 v2 v4 v6) (k0_pay13 (k0_pay7 v0 v4 v6) (k0_pay9 v2 v4 v6))
        (k0_pay14 (k0_pay6 v0 v4 v6) (k0_pay8 v2 v4 v6) (k0_pay10 v0 v4 v6) (k0_pay11 v2 v4 v6) (k0_pay12 (F := Ideal)))
        (ix3 (0 : Fin 1) nl (⟨l.val, by have := l.isLt; omega⟩ : Fin 128))
      = outSlotwise
          (fun k => k0_pay4 (F := Ideal) v0 v4 v6 (ix3 nl k (⟨96 + l.val, by have := l.isLt; omega⟩ : Fin 192)))
          (fun k => k0_pay5 (F := Ideal) v2 v4 v6 (ix3 nl k (⟨96 + l.val, by have := l.isLt; omega⟩ : Fin 192)))
          (fun k => sff
            (fun c' => k0_pay4 (F := Ideal) v0 v4 v6 (ix3 nl k (⟨c'.val, by have := c'.isLt; omega⟩ : Fin 192)))
            (fun c' => k0_pay5 (F := Ideal) v2 v4 v6 (ix3 nl k (⟨c'.val, by have := c'.isLt; omega⟩ : Fin 192)))) := by
  refine (pay1_read _ _ _ _ nl l).trans ?_
  unfold outSlotwise
  refine congrArg₂ (fun p q : EReal => p + q) (Finset.sum_congr rfl fun k _ => ?_) (Finset.sum_congr rfl fun k _ => ?_)
  · exact congrArg₂ (fun p q : EReal => p + q) (pay7_read v0 v4 v6 nl k l) (pay9_read v2 v4 v6 nl k l)
  · refine congrArg₂ (fun p q : EReal => p * q) ?_ ?_
    · exact congrArg₂ (fun p q : EReal => max (p - q) (-(p - q))) (pay7_read v0 v4 v6 nl k l) (pay9_read v2 v4 v6 nl k l)
    · refine (pay14_sff _ _ _ _ _ nl k l (pay10_read v0 v4 v6 nl k 0) (pay11_read v2 v4 v6 nl k 0) (pay12_read _)).trans ?_
      exact congrArg₂ sff (funext fun c => pay6_read v0 v4 v6 nl k c) (funext fun c => pay8_read v2 v4 v6 nl k c)

end Cert.KernelIdeal.BodyStats

end
-- ==== Proof.Body.lean ====
/-
  What one grid point stores, at one entry. The body stores one whole [1, 64, 128] block; its entry at local node nl
  and channel l (of the first 96 lanes) is the slot-by-slot result of the edges (nl, k), k = 0 … 17, whose end rows are
  the rows of the point's table blocks that the point's index words name.
-/
import proofs.«419923_j63213328662785_3_alg».proof.Proof.BodyGather
import proofs.«419923_j63213328662785_3_alg».proof.Proof.BodyStats

noncomputable section

open scoped BigOperators

namespace Cert.KernelIdeal.Body

open Idealize.ShloMosaic Idealize.ShloMosaic.TcCoe Idealize.ShloMosaic.ValueIdx Idealize.SL.Sem
open Cert.KernelIdeal Cert.KernelIdeal.Gen Cert.EdgeStat Cert.KernelIdeal.BodyGather Cert.KernelIdeal.BodyStats

/-- The three zero offsets of a whole-block access. -/
theorem zero_off : (![0, 0, 0] : Fin 3 → Nat) = fun _ => 0 := funext fun a => by fin_cases a <;> rfl

/-- The stored block at (0, nl, l), l < 96: the edges' end rows are rows `ri k`, `rj k` of the two table blocks added,
    where the index blocks hold the words of those row numbers. -/
theorem out_at (x0 x1 : Vec Ideal S1x3200x192 .bf16) (x2 x3 : Vec Ideal S1x1152x1 .i32) (nl : Fin 64) (l : Fin 96)
    (ri rj : Fin 18 → Fin 3200)
    (hi : ∀ k : Fin 18,
      x2 (ix3 (0 : Fin 1) (⟨nl.val * 18 + k.val, by have := nl.isLt; have := k.isLt; omega⟩ : Fin 1152) (0 : Fin 1))
        = BitVec.ofNat 32 (ri k).val)
    (hj : ∀ k : Fin 18,
      x3 (ix3 (0 : Fin 1) (⟨nl.val * 18 + k.val, by have := nl.isLt; have := k.isLt; omega⟩ : Fin 1152) (0 : Fin 1))
        = BitVec.ofNat 32 (rj k).val) :
    out0_4 (F := Ideal) x0 x1 x2 x3 (ix3 (0 : Fin 1) nl (⟨l.val, by have := l.isLt; omega⟩ : Fin 128))
      = outSlotwise
          (fun k => rowAt x0 x1 (ri k) (⟨96 + l.val, by have := l.isLt; omega⟩ : Fin 192))
          (fun k => rowAt x0 x1 (rj k) (⟨96 + l.val, by have := l.isLt; omega⟩ : Fin 192))
          (fun k => sff (fun c' => rowAt x0 x1 (ri k) (⟨c'.val, by have := c'.isLt; omega⟩ : Fin 192))
                        (fun c' => rowAt x0 x1 (rj k) (⟨c'.val, by have := c'.isLt; omega⟩ : Fin 192))) := by
  unfold out0_4
  rw [View.canon_unit_zero zero_off]
  simp only [View.ld_unit_zero (S := S1x1152x1) zero_off, View.ld_unit_zero (S := S1x3200x192) zero_off]
  refine (stats_at x2 x3 x0 x1 nl l).trans ?_
  have gi : ∀ (k : Fin 18) (col : Fin 192), k0_pay4 (F := Ideal) x2 x0 x1 (ix3 nl k col) = rowAt x0 x1 (ri k) col :=
    fun k col => gathered_i x2 x0 x1 nl k col (ri k) (hi k)
  have gj : ∀ (k : Fin 18) (col : Fin 192), k0_pay5 (F := Ideal) x3 x0 x1 (ix3 nl k col) = rowAt x0 x1 (rj k) col :=
    fun k col => gathered_j x3 x0 x1 nl k col (rj k) (hj k)
  simp only [gi, gj]

end Cert.KernelIdeal.Body

end
-- ==== Proof.Names.lean ====
/-
  Names, under their literal types, for what the kernel is launched on and what each grid point sees: the three
  argument arrays; the four arrays the host lines build before the launch (the table's high part and its
  remainder, [8, 3200, 192]; the two flattened index columns, [8, 57600, 1]); each window's block at a grid point; and
  the grid point of batch b and tile tt, b * 50 + tt of the 8 × 50 grid.
-/
import proofs.«419923_j63213328662785_3_alg».proof.Proof.Gen.KernelIdeal.Frame
import proofs.«419923_j63213328662785_3_alg».proof.Proof.Spec

noncomputable section

open scoped BigOperators

namespace Cert.KernelIdeal.Names

open Idealize.ShloMosaic Idealize.ShloMosaic.TcCoe Idealize.ShloMosaic.ValueIdx Idealize.SL.Sem
open Cert.KernelIdeal Cert.KernelIdeal.Gen Cert.EdgeStat

variable (m : (ℓ : Loc nD τ sig) → Buf (Elt Ideal) ℓ)

/-- The feature array x, the weight array x_p and the edge index array, as launched. -/
abbrev argX (c : Dev nD) : FVec Ideal S8x96x3136x1 .f32 := m ((c : Thread nD τ).loc main_arg0)
abbrev argXP (c : Dev nD) : FVec Ideal S8x96x3136x1 .f32 := m ((c : Thread nD τ).loc main_arg1)
abbrev argEI (c : Dev nD) : IVec S2x8x3136x18 32 := m ((c : Thread nD τ).loc main_arg2)

/-- The table's high part, its remainder, and the two index columns, as the region finds them. -/
abbrev hiArr (c : Dev nD) : FVec Ideal S8x3200x192 .bf16 := V m c main_v13
abbrev loArr (c : Dev nD) : FVec Ideal S8x3200x192 .bf16 := V m c main_v16
abbrev iiArr (c : Dev nD) : IVec S8x57600x1 32 := V m c main_v17
abbrev ijArr (c : Dev nD) : IVec S8x57600x1 32 := V m c main_v18

/-- Each input window's block at a grid point. -/
abbrev hiBlk (c : Dev nD) (t : Fin cfg0.N) : Vec Ideal S1x3200x192 .bf16 := iblk m c 0 t
abbrev loBlk (c : Dev nD) (t : Fin cfg0.N) : Vec Ideal S1x3200x192 .bf16 := iblk m c 1 t
abbrev iiBlk (c : Dev nD) (t : Fin cfg0.N) : Vec Ideal S1x1152x1 .i32 := iblk m c 2 t
abbrev ijBlk (c : Dev nD) (t : Fin cfg0.N) : Vec Ideal S1x1152x1 .i32 := iblk m c 3 t

/-- The output array [8, 3200, 128] after the last grid point. -/
abbrev outArr (c : Dev nD) : FVec Ideal S8x3200x128 .f32 := (dats m 0 c).arrAt 4 cfg0.N

/-- The kernel program's result buffer after the host lines that follow the region. -/
abbrev resArr (c : Dev nD) : FVec Ideal S8x96x3136x1 .f32 :=
  Pipeline.afterTail₀ cfgs (dats m) 0 (V0 m) [hostOps1] c main_v22

/-- The grid point of batch b and tile tt. -/
def pt (b : Fin 8) (tt : Fin 50) : Fin cfg0.N := ⟨b.val * 50 + tt.val, by
  have := b.isLt; have := tt.isLt; show b.val * 50 + tt.val < 400; omega⟩

end Cert.KernelIdeal.Names

end
-- ==== Proof.HostPre.lean ====
/-
  The four arrays the kernel is launched on, read at an index, as functions of the argument arrays: what the host
  lines before the launch (drop the unit axis, transpose nodes and channels, pad 64 zero nodes, put the weight
  channels after the feature channels; then the narrowing and widening, which change nothing on the extended reals,
  and the difference with the narrowed copy) leave in them.
-/
import proofs.«419923_j63213328662785_3_alg».proof.Proof.Names
import Idealize.ShloMosaic.Lib.Pipeline.Value
import Idealize.ShloMosaic.Lib.ValueLayout
import Idealize.ShloMosaic.Lib.StableHlo.Run
import Idealize.ShloMosaic.Lib.KernelVsHost

noncomputable section

open scoped BigOperators

namespace Cert.KernelIdeal.HostPre

open Idealize.ShloMosaic Idealize.ShloMosaic.TcCoe Idealize.ShloMosaic.ValueIdx Idealize.SL.Sem
open Cert.KernelIdeal Cert.KernelIdeal.Gen Cert.EdgeStat Cert.KernelIdeal.Names

variable (m : (ℓ : Loc nD τ sig) → Buf (Elt Ideal) ℓ)

/-! ## Reading the layout operations at an index -/

/-- Dropping the unit axis of an argument and swapping nodes with channels: entry (b, n, ch) is the argument's (b, ch, n, 0). -/
theorem swapped_at (x : FVec Ideal S8x96x3136x1 .f32) (b : Fin 8) (n : Fin 3136) (ch : Fin 96) :
    transpose S8x3136x96 [0, 2, 1] (shapeCast S8x96x3136 x shapeCasts_S8x96x3136x1_S8x96x3136)
        transposes_S8x96x3136_S8x3136x96_0_2_1 (ix3 b n ch)
      = x (ix4 b ch n (0 : Fin 1)) := by
  refine (transpose_apply [0, 2, 1] _ transposes_S8x96x3136_S8x3136x96_0_2_1 (ix3 b n ch) (ix3 b ch n)
    (fun a => match a with
      | ⟨0, _⟩ => rfl
      | ⟨1, _⟩ => rfl
      | ⟨2, _⟩ => rfl)).trans ?_
  exact shapeCast_apply x shapeCasts_S8x96x3136x1_S8x96x3136 (ix3 b ch n) (ix4 b ch n (0 : Fin 1))
    (by rewrite [Shape.rowMajor_val_four, Shape.rowMajor_val_three]
        show ((b.val * 96 + ch.val) * 3136 + n.val) * 1 + 0 = (b.val * 96 + ch.val) * 3136 + n.val
        omega)

/-- The converted integer zero is the real number zero. -/
theorem padval_zero :
    (sitofp .f32 (constantI S_ 32 0#32) : FVec Ideal S_ .f32) (Shape.Idx.first h_S_) = (0 : EReal) := by
  show ((((0#32 : BitVec 32).toInt : ℤ) : ℝ) : EReal) = 0
  simp

/-- Sixty-four zero nodes after the 3136: row r of the padded array is row r of the operand below 3136, and zero from there on. -/
theorem padded_at (y : FVec Ideal S8x3136x96 .f32) (b : Fin 8) (r : Fin 3200) (ch : Fin 96) :
    pad S8x3200x96 ![0, 0, 0] ![0, 64, 0] ![0, 0, 0] y (sitofp .f32 (constantI S_ 32 0#32) : FVec Ideal S_ .f32)
        pads_S8x3136x96_S8x3200x96_000_0640_000 h_S_ (ix3 b r ch)
      = if hr : r.val < 3136 then y (ix3 b (⟨r.val, hr⟩ : Fin 3136) ch) else (0 : EReal) := by
  by_cases hr : r.val < 3136
  · rw [dif_pos hr]
    exact pad_apply_of_inside ![0, 0, 0] ![0, 64, 0] ![0, 0, 0] y _ pads_S8x3136x96_S8x3200x96_000_0640_000 h_S_
      (ix3 b r ch) (ix3 b (⟨r.val, hr⟩ : Fin 3136) ch)
      (fun a => match a with
        | ⟨0, _⟩ => by show b.val = 0 + b.val * (0 + 1); omega
        | ⟨1, _⟩ => by show r.val = 0 + r.val * (0 + 1); omega
        | ⟨2, _⟩ => by show ch.val = 0 + ch.val * (0 + 1); omega)
  · rw [dif_neg hr]
    refine (pad_apply_of_not_inside ![0, 0, 0] ![0, 64, 0] ![0, 0, 0] y _ pads_S8x3136x96_S8x3200x96_000_0640_000 h_S_
      (ix3 b r ch) (1 : Fin 3) ?_).trans padval_zero
    show ¬(0 ≤ r.val ∧ (r.val - 0) % (0 + 1) = 0 ∧ (r.val - 0) / (0 + 1) < 3136)
    omega

/-- One argument laid out as the table wants it: nodes by channels, the unit axis gone, 64 zero nodes appended. -/
abbrev hostHalf (x : FVec Ideal S8x96x3136x1 .f32) : FVec Ideal S8x3200x96 .f32 :=
  pad S8x3200x96 ![0, 0, 0] ![0, 64, 0] ![0, 0, 0]
    (transpose S8x3136x96 [0, 2, 1] (shapeCast S8x96x3136 x shapeCasts_S8x96x3136x1_S8x96x3136)
      transposes_S8x96x3136_S8x3136x96_0_2_1)
    (sitofp .f32 (constantI S_ 32 0#32) : FVec Ideal S_ .f32)
    pads_S8x3136x96_S8x3200x96_000_0640_000 h_S_

theorem hostHalf_at (x : FVec Ideal S8x96x3136x1 .f32) (b : Fin 8) (r : Fin 3200) (ch : Fin 96) :
    hostHalf x (ix3 b r ch) = if hr : r.val < 3136 then x (ix4 b ch (⟨r.val, hr⟩ : Fin 3136) (0 : Fin 1)) else (0 : EReal) := by
  refine (padded_at _ b r ch).trans ?_
  by_cases hr : r.val < 3136
  · rw [dif_pos hr, dif_pos hr]; exact swapped_at x b ⟨r.val, hr⟩ ch
  · rw [dif_neg hr, dif_neg hr]

/-- The whole table: the feature channels' half, then the weight channels' half, along the last axis. -/
abbrev hostTable (x xp : FVec Ideal S8x96x3136x1 .f32) : FVec Ideal S8x3200x192 .f32 :=
  concatenate S8x3200x192 2 [⟨S8x3200x96, hostHalf x⟩, ⟨S8x3200x96, hostHalf xp⟩]
    concatenates_S8x3200x96_S8x3200x96_S8x3200x192_d2

theorem hostTable_at (x xp : FVec Ideal S8x96x3136x1 .f32) (b : Fin 8) (r : Fin 3200) (col : Fin 192) :
    hostTable x xp (ix3 b r col) = tableAt x xp b r col := by
  unfold tableAt
  by_cases hc : col.val < 96
  · refine (concatenate_pair_apply_left (2 : Fin 3) (hostHalf x) (hostHalf xp)
      concatenates_S8x3200x96_S8x3200x96_S8x3200x192_d2 (ix3 b r col) rfl (ix3 b r (⟨col.val, hc⟩ : Fin 96))
      (fun a => match a with
        | ⟨0, _⟩ => rfl
        | ⟨1, _⟩ => rfl
        | ⟨2, _⟩ => rfl)).trans ?_
    refine (hostHalf_at x b r ⟨col.val, hc⟩).trans ?_
    by_cases hr : r.val < 3136
    · rw [dif_pos hr, dif_pos hr, dif_pos hc]
    · rw [dif_neg hr, dif_neg hr]
  · have hc' : col.val - 96 < 96 := by have := col.isLt; omega
    refine (concatenate_pair_apply_right (2 : Fin 3) (hostHalf x) (hostHalf xp)
      concatenates_S8x3200x96_S8x3200x96_S8x3200x192_d2 (ix3 b r col) rfl rfl (ix3 b r (⟨col.val - 96, hc'⟩ : Fin 96))
      (fun a => match a with
        | ⟨0, _⟩ => fun _ => rfl
        | ⟨1, _⟩ => fun _ => rfl
        | ⟨2, _⟩ => fun h => absurd rfl h)
      (by show col.val - 96 + 96 = col.val; omega)).trans ?_
    refine (hostHalf_at xp b r ⟨col.val - 96, hc'⟩).trans ?_
    by_cases hr : r.val < 3136
    · rw [dif_pos hr, dif_pos hr, dif_neg hc]
    · rw [dif_neg hr, dif_neg hr]

/-! ## The two table arrays as the host lines' composed term of the arguments -/

set_option maxHeartbeats 1000000 in
theorem hi_term (c : Dev nD) : (hiArr m c : FVec Ideal S8x3200x192 .bf16) =
    truncf .bf16 (hostTable (argX m c) (argXP m c)) bitsLt_bf16_f32 := by
  dsimp only [hiArr, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  open Idealize.ShloMosaic.StableHlo in after_results
  rfl

set_option maxHeartbeats 1000000 in
theorem lo_term (c : Dev nD) : (loArr m c : FVec Ideal S8x3200x192 .bf16) =
    truncf .bf16
      (subf (hostTable (argX m c) (argXP m c))
        (extf .f32 (truncf .bf16 (hostTable (argX m c) (argXP m c)) bitsLt_bf16_f32 : FVec Ideal S8x3200x192 .bf16) bitsLt_bf16_f32))
      bitsLt_bf16_f32 := by
  dsimp only [loArr, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  open Idealize.ShloMosaic.StableHlo in after_results
  rfl

/-! ## The two index columns -/

/-- One end of the edge index array, its unit axis dropped: entry (b, n, k) is the array's (s, b, n, k). -/
theorem end_at (ei : IVec S2x8x3136x18 32) (s : Fin 2) (off : Fin 4 → Nat) (hoff : off = ![s.val, 0, 0, 0])
    (hs : S2x8x3136x18.Slices off S1x8x3136x18) (b : Fin 8) (n : Fin 3136) (k : Fin 18) :
    shapeCast S8x3136x18 (extractStridedSlice S1x8x3136x18 off ei hs) shapeCasts_S1x8x3136x18_S8x3136x18 (ix3 b n k)
      = ei (ix4 s b n k) := by
  subst hoff
  refine (shapeCast_apply _ shapeCasts_S1x8x3136x18_S8x3136x18 (ix3 b n k) (ix4 (0 : Fin 1) b n k)
    (by rewrite [Shape.rowMajor_val_four, Shape.rowMajor_val_three]
        show ((0 * 8 + b.val) * 3136 + n.val) * 18 + k.val = (b.val * 3136 + n.val) * 18 + k.val
        omega)).trans ?_
  exact extractStridedSlice_apply ![s.val, 0, 0, 0] ei hs (ix4 (0 : Fin 1) b n k) (ix4 s b n k)
    (fun a => match a with
      | ⟨0, _⟩ => by show s.val = s.val + 0; omega
      | ⟨1, _⟩ => by show b.val = 0 + b.val; omega
      | ⟨2, _⟩ => by show n.val = 0 + n.val; omega
      | ⟨3, _⟩ => by show k.val = 0 + k.val; omega)

/-- Sixty-four nodes of zero words appended, then each batch's nodes and slots laid end to end: entry q is slot q % 18 of
    node q / 18, the zero word for the appended nodes. -/
theorem column_at (y : IVec S8x3136x18 32) (b : Fin 8) (q : Fin 57600) :
    shapeCast S8x57600x1
        (pad S8x3200x18 ![0, 0, 0] ![0, 64, 0] ![0, 0, 0] y (constantI S_ 32 0#32)
          pads_S8x3136x18_S8x3200x18_000_0640_000 h_S_)
        shapeCasts_S8x3200x18_S8x57600x1 (ix3 b q (0 : Fin 1))
      = if h : q.val / 18 < 3136 then
          y (ix3 b (⟨q.val / 18, h⟩ : Fin 3136) (⟨q.val % 18, Nat.mod_lt _ (by norm_num)⟩ : Fin 18))
        else 0#32 := by
  have hq : q.val / 18 < 3200 := by have := q.isLt; omega
  have hk : q.val % 18 < 18 := Nat.mod_lt _ (by norm_num)
  refine (shapeCast_apply _ shapeCasts_S8x3200x18_S8x57600x1 (ix3 b q (0 : Fin 1))
    (ix3 b (⟨q.val / 18, hq⟩ : Fin 3200) (⟨q.val % 18, hk⟩ : Fin 18))
    (by rewrite [Shape.rowMajor_val_three, Shape.rowMajor_val_three]
        show (b.val * 3200 + q.val / 18) * 18 + q.val % 18 = (b.val * 57600 + q.val) * 1 + 0
        omega)).trans ?_
  by_cases h : q.val / 18 < 3136
  · rw [dif_pos h]
    exact pad_apply_of_inside ![0, 0, 0] ![0, 64, 0] ![0, 0, 0] y _ pads_S8x3136x18_S8x3200x18_000_0640_000 h_S_
      (ix3 b (⟨q.val / 18, hq⟩ : Fin 3200) (⟨q.val % 18, hk⟩ : Fin 18))
      (ix3 b (⟨q.val / 18, h⟩ : Fin 3136) (⟨q.val % 18, hk⟩ : Fin 18))
      (fun a => match a with
        | ⟨0, _⟩ => by show b.val = 0 + b.val * (0 + 1); omega
        | ⟨1, _⟩ => by show q.val / 18 = 0 + q.val / 18 * (0 + 1); omega
        | ⟨2, _⟩ => by show q.val % 18 = 0 + q.val % 18 * (0 + 1); omega)
  · rw [dif_neg h]
    refine (pad_apply_of_not_inside ![0, 0, 0] ![0, 64, 0] ![0, 0, 0] y _ pads_S8x3136x18_S8x3200x18_000_0640_000 h_S_
      (ix3 b (⟨q.val / 18, hq⟩ : Fin 3200) (⟨q.val % 18, hk⟩ : Fin 18)) (1 : Fin 3) ?_).trans rfl
    show ¬(0 ≤ q.val / 18 ∧ (q.val / 18 - 0) % (0 + 1) = 0 ∧ (q.val / 18 - 0) / (0 + 1) < 3136)
    omega

set_option maxHeartbeats 1000000 in
theorem ii_term (c : Dev nD) : (iiArr m c : IVec S8x57600x1 32) =
    shapeCast S8x57600x1
      (pad S8x3200x18 ![0, 0, 0] ![0, 64, 0] ![0, 0, 0]
        (shapeCast S8x3136x18 (extractStridedSlice S1x8x3136x18 ![1, 0, 0, 0] (argEI m c) slices_S2x8x3136x18_S1x8x3136x18_1_0_0_0)
          shapeCasts_S1x8x3136x18_S8x3136x18)
        (constantI S_ 32 0#32) pads_S8x3136x18_S8x3200x18_000_0640_000 h_S_)
      shapeCasts_S8x3200x18_S8x57600x1 := by
  dsimp only [iiArr, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  open Idealize.ShloMosaic.StableHlo in after_results
  rfl

set_option maxHeartbeats 1000000 in
theorem ij_term (c : Dev nD) : (ijArr m c : IVec S8x57600x1 32) =
    shapeCast S8x57600x1
      (pad S8x3200x18 ![0, 0, 0] ![0, 64, 0] ![0, 0, 0]
        (shapeCast S8x3136x18 (extractStridedSlice S1x8x3136x18 ![0, 0, 0, 0] (argEI m c) slices_S2x8x3136x18_S1x8x3136x18_0_0_0_0)
          shapeCasts_S1x8x3136x18_S8x3136x18)
        (constantI S_ 32 0#32) pads_S8x3136x18_S8x3200x18_000_0640_000 h_S_)
      shapeCasts_S8x3200x18_S8x57600x1 := by
  dsimp only [ijArr, Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  open Idealize.ShloMosaic.StableHlo in after_results
  rfl

/-! ## The four arrays at an index -/

/-- The table's high part is the table itself. -/
theorem hi_at (c : Dev nD) (b : Fin 8) (r : Fin 3200) (col : Fin 192) :
    hiArr m c (ix3 b r col) = tableAt (argX m c) (argXP m c) b r col := by
  rw [hi_term m c]
  exact hostTable_at (argX m c) (argXP m c) b r col

/-- The remainder is the table minus itself (zero wherever the table's entry is a real number). -/
theorem lo_at (c : Dev nD) (b : Fin 8) (r : Fin 3200) (col : Fin 192) :
    loArr m c (ix3 b r col) = tableAt (argX m c) (argXP m c) b r col - tableAt (argX m c) (argXP m c) b r col := by
  rw [lo_term m c]
  show hostTable (argX m c) (argXP m c) (ix3 b r col) - hostTable (argX m c) (argXP m c) (ix3 b r col) = _
  rw [hostTable_at (argX m c) (argXP m c) b r col]

/-- The first index column holds the centres (end 1 of the edge index array), node by node, slot by slot. -/
theorem ii_at (c : Dev nD) (b : Fin 8) (q : Fin 57600) :
    iiArr m c (ix3 b q (0 : Fin 1)) = flatIdxAt (argEI m c) (1 : Fin 2) b q := by
  rw [ii_term m c]
  refine (column_at _ b q).trans ?_
  unfold flatIdxAt
  by_cases h : q.val / 18 < 3136
  · rw [dif_pos h, dif_pos h]
    exact end_at (argEI m c) (1 : Fin 2) ![1, 0, 0, 0] rfl slices_S2x8x3136x18_S1x8x3136x18_1_0_0_0 b _ _
  · rw [dif_neg h, dif_neg h]

/-- The second holds the neighbours (end 0). -/
theorem ij_at (c : Dev nD) (b : Fin 8) (q : Fin 57600) :
    ijArr m c (ix3 b q (0 : Fin 1)) = flatIdxAt (argEI m c) (0 : Fin 2) b q := by
  rw [ij_term m c]
  refine (column_at _ b q).trans ?_
  unfold flatIdxAt
  by_cases h : q.val / 18 < 3136
  · rw [dif_pos h, dif_pos h]
    exact end_at (argEI m c) (0 : Fin 2) ![0, 0, 0, 0] rfl slices_S2x8x3136x18_S1x8x3136x18_0_0_0_0 b _ _
  · rw [dif_neg h, dif_neg h]

end Cert.KernelIdeal.HostPre

end
-- ==== Proof.ArrayTail.lean ====
/-
  From the grid points' blocks to the arrays. Grid point (b, tt) reads batch b's whole table, rows
  tt * 1152 … tt * 1152 + 1151 of batch b's index columns, and writes rows tt * 64 … tt * 64 + 63 of batch b's output;
  the 400 output blocks tile the output array, so after the last point every entry is what its point stored. The host
  lines after the region then keep nodes 0 … 3135 and lanes 0 … 95, swap nodes and channels, and add a unit axis.
-/
import proofs.«419923_j63213328662785_3_alg».proof.Proof.Names
import Idealize.ShloMosaic.Lib.Pipeline.Value
import Idealize.ShloMosaic.Lib.ValueLayout
import Idealize.ShloMosaic.Lib.StableHlo.Run

noncomputable section

open scoped BigOperators

namespace Cert.KernelIdeal.ArrayTail

open Idealize.ShloMosaic Idealize.ShloMosaic.TcCoe Idealize.ShloMosaic.ValueIdx Idealize.SL.Sem
open Cert.KernelIdeal Cert.KernelIdeal.Gen Cert.EdgeStat Cert.KernelIdeal.Names

variable (m : (ℓ : Loc nD τ sig) → Buf (Elt Ideal) ℓ) (ρ : Dev nD → PrngReg)

/-- The printed index maps over the 8 × 50 grid: point t is batch t / 50, tile t % 50; a table's block index is
    (batch, 0, 0), an index column's and the output's is (batch, tile, 0). -/
theorem idx_facts : ∀ t : Fin cfg0.N,
    win0_0.index t (0 : Fin 3) = t.val / 50 ∧ win0_0.index t (1 : Fin 3) = 0 ∧ win0_0.index t (2 : Fin 3) = 0
    ∧ win0_1.index t (0 : Fin 3) = t.val / 50 ∧ win0_1.index t (1 : Fin 3) = 0 ∧ win0_1.index t (2 : Fin 3) = 0
    ∧ win0_2.index t (0 : Fin 3) = t.val / 50 ∧ win0_2.index t (1 : Fin 3) = t.val % 50 ∧ win0_2.index t (2 : Fin 3) = 0
    ∧ win0_3.index t (0 : Fin 3) = t.val / 50 ∧ win0_3.index t (1 : Fin 3) = t.val % 50 ∧ win0_3.index t (2 : Fin 3) = 0
    ∧ win0_4.index t (0 : Fin 3) = t.val / 50 ∧ win0_4.index t (1 : Fin 3) = t.val % 50 ∧ win0_4.index t (2 : Fin 3) = 0 :=
  (by decide +kernel : ∀ t : Fin grid0.N, _)

/-- The grid point of batch b and tile tt is number b * 50 + tt. -/
theorem pt_val (b : Fin 8) (tt : Fin 50) : (pt b tt).val = b.val * 50 + tt.val := rfl

/-- The table blocks at (b, tt) are batch b's table. -/
theorem blk_hi (c : Dev nD) (b : Fin 8) (tt : Fin 50) (r : Fin 3200) (col : Fin 192) :
    hiBlk m c (pt b tt) (ix3 (0 : Fin 1) r col) = hiArr m c (ix3 b r col) := by
  show V m c main_v13 (((cfg0.win 0).blk (pt b tt)).view.emb (ix3 (0 : Fin 1) r col)) = V m c main_v13 (ix3 b r col)
  refine congrArg _ ?_
  obtain ⟨e0, e1, e2, -⟩ := idx_facts (pt b tt)
  have hp := pt_val b tt
  have hb := b.isLt; have ht := tt.isLt
  funext a; apply Fin.ext
  match a with
  | ⟨0, _⟩ => show win0_0.index (pt b tt) (0 : Fin 3) * 1 + 1 * (0 : Fin 1).val = b.val; rw [e0, hp]; show _ * 1 + 1 * 0 = _; omega
  | ⟨1, _⟩ => show win0_0.index (pt b tt) (1 : Fin 3) * 3200 + 1 * r.val = r.val; rw [e1]; omega
  | ⟨2, _⟩ => show win0_0.index (pt b tt) (2 : Fin 3) * 192 + 1 * col.val = col.val; rw [e2]; omega

theorem blk_lo (c : Dev nD) (b : Fin 8) (tt : Fin 50) (r : Fin 3200) (col : Fin 192) :
    loBlk m c (pt b tt) (ix3 (0 : Fin 1) r col) = loArr m c (ix3 b r col) := by
  show V m c main_v16 (((cfg0.win 1).blk (pt b tt)).view.emb (ix3 (0 : Fin 1) r col)) = V m c main_v16 (ix3 b r col)
  refine congrArg _ ?_
  obtain ⟨-, -, -, e0, e1, e2, -⟩ := idx_facts (pt b tt)
  have hp := pt_val b tt
  have hb := b.isLt; have ht := tt.isLt
  funext a; apply Fin.ext
  match a with
  | ⟨0, _⟩ => show win0_1.index (pt b tt) (0 : Fin 3) * 1 + 1 * (0 : Fin 1).val = b.val; rw [e0, hp]; show _ * 1 + 1 * 0 = _; omega
  | ⟨1, _⟩ => show win0_1.index (pt b tt) (1 : Fin 3) * 3200 + 1 * r.val = r.val; rw [e1]; omega
  | ⟨2, _⟩ => show win0_1.index (pt b tt) (2 : Fin 3) * 192 + 1 * col.val = col.val; rw [e2]; omega

/-- The index blocks at (b, tt) are rows tt * 1152 + q of batch b's index columns. -/
theorem blk_ii (c : Dev nD) (b : Fin 8) (tt : Fin 50) (q : Fin 1152) :
    iiBlk m c (pt b tt) (ix3 (0 : Fin 1) q (0 : Fin 1))
      = iiArr m c (ix3 b (⟨tt.val * 1152 + q.val, by have := tt.isLt; have := q.isLt; omega⟩ : Fin 57600) (0 : Fin 1)) := by
  show V m c main_v17 (((cfg0.win 2).blk (pt b tt)).view.emb (ix3 (0 : Fin 1) q (0 : Fin 1)))
    = V m c main_v17 (ix3 b (⟨tt.val * 1152 + q.val, by have := tt.isLt; have := q.isLt; omega⟩ : Fin 57600) (0 : Fin 1))
  refine congrArg _ ?_
  obtain ⟨-, -, -, -, -, -, e0, e1, e2, -⟩ := idx_facts (pt b tt)
  have hp := pt_val b tt
  have hb := b.isLt; have ht := tt.isLt
  funext a; apply Fin.ext
  match a with
  | ⟨0, _⟩ => show win0_2.index (pt b tt) (0 : Fin 3) * 1 + 1 * (0 : Fin 1).val = b.val; rw [e0, hp]; show _ * 1 + 1 * 0 = _; omega
  | ⟨1, _⟩ => show win0_2.index (pt b tt) (1 : Fin 3) * 1152 + 1 * q.val = tt.val * 1152 + q.val; rw [e1, hp]; omega
  | ⟨2, _⟩ => show win0_2.index (pt b tt) (2 : Fin 3) * 1 + 1 * (0 : Fin 1).val = (0 : Fin 1).val; rw [e2]; omega

theorem blk_ij (c : Dev nD) (b : Fin 8) (tt : Fin 50) (q : Fin 1152) :
    ijBlk m c (pt b tt) (ix3 (0 : Fin 1) q (0 : Fin 1))
      = ijArr m c (ix3 b (⟨tt.val * 1152 + q.val, by have := tt.isLt; have := q.isLt; omega⟩ : Fin 57600) (0 : Fin 1)) := by
  show V m c main_v18 (((cfg0.win 3).blk (pt b tt)).view.emb (ix3 (0 : Fin 1) q (0 : Fin 1)))
    = V m c main_v18 (ix3 b (⟨tt.val * 1152 + q.val, by have := tt.isLt; have := q.isLt; omega⟩ : Fin 57600) (0 : Fin 1))
  refine congrArg _ ?_
  obtain ⟨-, -, -, -, -, -, -, -, -, e0, e1, e2, -⟩ := idx_facts (pt b tt)
  have hp := pt_val b tt
  have hb := b.isLt; have ht := tt.isLt
  funext a; apply Fin.ext
  match a with
  | ⟨0, _⟩ => show win0_3.index (pt b tt) (0 : Fin 3) * 1 + 1 * (0 : Fin 1).val = b.val; rw [e0, hp]; show _ * 1 + 1 * 0 = _; omega
  | ⟨1, _⟩ => show win0_3.index (pt b tt) (1 : Fin 3) * 1152 + 1 * q.val = tt.val * 1152 + q.val; rw [e1, hp]; omega
  | ⟨2, _⟩ => show win0_3.index (pt b tt) (2 : Fin 3) * 1 + 1 * (0 : Fin 1).val = (0 : Fin 1).val; rw [e2]; omega

/-- The grid point whose output block holds row (i 1) of batch (i 0): batch × 50 + row / 64. -/
def ptOf (i : S8x3200x128.Idx) : Fin cfg0.N := ⟨(i 0).val * 50 + (i 1).val / 64, by
  have h0 : (i 0).val < 8 := (i 0).isLt; have h1 : (i 1).val < 3200 := (i 1).isLt
  show (i 0).val * 50 + (i 1).val / 64 < 400; omega⟩

/-- Where that row sits inside the point's block: row % 64, the same lane. -/
def locOf (i : S8x3200x128.Idx) : S1x64x128.Idx :=
  ix3 (0 : Fin 1) (⟨(i 1).val % 64, Nat.mod_lt _ (by norm_num)⟩ : Fin 64) (⟨(i 2).val, (i 2).isLt⟩ : Fin 128)

/-- What grid point t stores: the body's output block from the four input blocks at t. -/
def stored (c : Dev nD) (t : Fin cfg0.N) : Vec Ideal S1x64x128 .f32 :=
  out0_4 (hiBlk m c t) (loBlk m c t) (iiBlk m c t) (ijBlk m c t)

/-- The whole output array as one function: each entry is what its point stores at its place in the block. -/
def outFn (c : Dev nD) : FVec Ideal S8x3200x128 .f32 := fun i => stored m c (ptOf i) (locOf i)

/-- An entry of point t's output block lies, in the array, at a row whose point is t and whose place is its own. -/
theorem emb_out (t : Fin cfg0.N) (y : S1x64x128.Idx) :
    ptOf (((cfg0.win 4).blk t).view.emb y) = t ∧ locOf (((cfg0.win 4).blk t).view.emb y) = y := by
  obtain ⟨-, -, -, -, -, -, -, -, -, -, -, -, e0, e1, e2⟩ := idx_facts t
  have h0 : ((((cfg0.win 4).blk t).view.emb y) 0).val = win0_4.index t (0 : Fin 3) * 1 + 1 * (y 0).val := rfl
  have h1 : ((((cfg0.win 4).blk t).view.emb y) 1).val = win0_4.index t (1 : Fin 3) * 64 + 1 * (y 1).val := rfl
  have h2 : ((((cfg0.win 4).blk t).view.emb y) 2).val = win0_4.index t (2 : Fin 3) * 128 + 1 * (y 2).val := rfl
  have y0 : (y 0).val < 1 := (y 0).isLt
  have y1 : (y 1).val < 64 := (y 1).isLt
  have y2 : (y 2).val < 128 := (y 2).isLt
  have ht : t.val < 400 := t.isLt
  constructor
  · apply Fin.ext
    show (((cfg0.win 4).blk t).view.emb y 0).val * 50 + (((cfg0.win 4).blk t).view.emb y 1).val / 64 = t.val
    rw [h0, h1, e0, e1]; omega
  · funext a; apply Fin.ext
    match a with
    | ⟨0, _⟩ => show 0 = (y 0).val; omega
    | ⟨1, _⟩ => show (((cfg0.win 4).blk t).view.emb y 1).val % 64 = (y 1).val; rw [h1, e1]; omega
    | ⟨2, _⟩ => show (((cfg0.win 4).blk t).view.emb y 2).val = (y 2).val; rw [h2, e2]; omega

/-- Contents of the output block whose entries are a whole-array function at their places in the array are,
    written back, that function's block. -/
theorem cut_read_aux (t : Fin cfg0.N) (X : Vec Ideal S1x64x128 .f32) (G : FVec Ideal S8x3200x128 .f32)
    (h : ∀ y : S1x64x128.Idx, X y = G (((cfg0.win 4).blk t).view.emb y)) :
    (cfg0.win 4).cut (grid0.coords t) X = ((cfg0.win 4).blk t).view.read (Elt Ideal) G := by
  funext y
  exact h y

/-- An entry point t stores is the whole-array function at that entry's place in the array. -/
theorem stored_at (c : Dev nD) (t : Fin cfg0.N) (y : S1x64x128.Idx) :
    stored m c t y = outFn m c (((cfg0.win 4).blk t).view.emb y) := by
  show stored m c t y = stored m c (ptOf (((cfg0.win 4).blk t).view.emb y)) (locOf (((cfg0.win 4).blk t).view.emb y))
  rw [(emb_out t y).1, (emb_out t y).2]

/-- What point t writes back is block t of the whole-array function. -/
theorem flushed_eq (c : Dev nD) (t : Fin cfg0.N) :
    (dats m 0 c).flushed 4 t = ((cfg0.win 4).blk t).view.read (Elt Ideal) (outFn m c) := by
  show (cfg0.win 4).cut (grid0.coords t) ((dats m 0 c).after 4 t) = _
  rw [after0_4]
  exact cut_read_aux t (stored m c t) (outFn m c) (stored_at m c t)

/-- An index of the array is in point t's block iff each coordinate is in the block's range on its axis. -/
theorem mem_blk (t : Fin cfg0.N) (i : S8x3200x128.Idx) :
    i ∈ ((cfg0.win 4).blk t).view.set ↔ ∀ a : Fin 3, win0_4.index t a * S1x64x128.size a ≤ (i a).val ∧ (i a).val < win0_4.index t a * S1x64x128.size a + S1x64x128.size a := by
  show i ∈ ((View.whole main_v19).slice (win0_4.rect t)).set ↔ _
  rw [View.set_slice_whole, Rect.mem_set_unit]
  exact Iff.rfl

/-- The 400 output blocks cover the array: row r of batch b is in the block of point b × 50 + r / 64. -/
theorem cover (i : S8x3200x128.Idx) :
    ∃ t : Fin cfg0.N, (cfg0.win 4).flush t = true ∧ i ∈ ((cfg0.win 4).blk t).view.set := by
  refine ⟨ptOf i, flush0_4 _, ?_⟩
  rw [mem_blk]
  obtain ⟨-, -, -, -, -, -, -, -, -, -, -, -, e0, e1, e2⟩ := idx_facts (ptOf i)
  have hv : (ptOf i).val = (i 0).val * 50 + (i 1).val / 64 := rfl
  have h0 : (i 0).val < 8 := (i 0).isLt
  have h1 : (i 1).val < 3200 := (i 1).isLt
  have h2 : (i 2).val < 128 := (i 2).isLt
  intro a
  match a with
  | ⟨0, _⟩ => show win0_4.index (ptOf i) (0 : Fin 3) * 1 ≤ (i 0).val ∧ (i 0).val < win0_4.index (ptOf i) (0 : Fin 3) * 1 + 1; rw [e0, hv]; omega
  | ⟨1, _⟩ => show win0_4.index (ptOf i) (1 : Fin 3) * 64 ≤ (i 1).val ∧ (i 1).val < win0_4.index (ptOf i) (1 : Fin 3) * 64 + 64; rw [e1, hv]; omega
  | ⟨2, _⟩ => show win0_4.index (ptOf i) (2 : Fin 3) * 128 ≤ (i 2).val ∧ (i 2).val < win0_4.index (ptOf i) (2 : Fin 3) * 128 + 128; rw [e2]; omega

/-- After the last point the output array is the whole-array function. -/
theorem out_eq (c : Dev nD) : outArr m c = outFn m c :=
  (dats m 0 c).arrAt_eq_of_cover 4 (outFn m c) (fun t _ => flushed_eq m c t) cover

/-- The output array at row tt * 64 + nl of batch b is what grid point (b, tt) stored at local row nl. -/
theorem out_arr_at (c : Dev nD) (b : Fin 8) (tt : Fin 50) (nl : Fin 64) (l : Fin 128) :
    outArr m c (ix3 b (⟨tt.val * 64 + nl.val, by have := tt.isLt; have := nl.isLt; omega⟩ : Fin 3200) l)
      = out0_4 (hiBlk m c (pt b tt)) (loBlk m c (pt b tt)) (iiBlk m c (pt b tt)) (ijBlk m c (pt b tt))
          (ix3 (0 : Fin 1) nl l) := by
  rw [out_eq]
  have hb := b.isLt; have ht := tt.isLt; have hn := nl.isLt
  have hp : ptOf (ix3 b (⟨tt.val * 64 + nl.val, by omega⟩ : Fin 3200) l) = pt b tt :=
    Fin.ext (by show b.val * 50 + (tt.val * 64 + nl.val) / 64 = b.val * 50 + tt.val; omega)
  have hl : locOf (ix3 b (⟨tt.val * 64 + nl.val, by omega⟩ : Fin 3200) l) = ix3 (0 : Fin 1) nl l := by
    funext a; apply Fin.ext
    match a with
    | ⟨0, _⟩ => rfl
    | ⟨1, _⟩ => show (tt.val * 64 + nl.val) % 64 = nl.val; omega
    | ⟨2, _⟩ => rfl
  show stored m c (ptOf (ix3 b (⟨tt.val * 64 + nl.val, by omega⟩ : Fin 3200) l)) (locOf (ix3 b (⟨tt.val * 64 + nl.val, by omega⟩ : Fin 3200) l))
    = stored m c (pt b tt) (ix3 (0 : Fin 1) nl l)
  rw [hp, hl]

/-- The host lines after the region, as one function of the output array: rows 0 … 3135 and lanes 0 … 95 kept, the two
    swapped, a unit axis appended. -/
theorem res_eq (c : Dev nD) :
    resArr m c = broadcastInDim S8x96x3136x1 ![0, 1, 2] bcast_S8x96x3136_S8x96x3136x1_0_1_2
      (transpose S8x96x3136 [0, 2, 1]
        (extractStridedSlice S8x3136x96 ![0, 0, 0] (outArr m c) slices_S8x3200x128_S8x3136x96_0_0_0)
        transposes_S8x3136x96_S8x96x3136_0_2_1) := by
  show Pipeline.afterTail₀ cfgs (dats m) 0 (V0 m) [hostOps1] c main_v22 = _
  unfold Pipeline.afterTail₀
  show StableHlo.after hostOps1 _ (Proc.devRef .tc main_v22) = _
  after_results
  have e : Pipeline.withArrays (cfgs 0).spec c (V0 m c) (fun w => (dats m 0 c).arrAt w (cfgs 0).N) (Proc.devRef .tc main_v19)
      = outArr m c := Pipeline.withArrays_arr spec0 launch0.win.arr_inj c _ _ 4
  rw [e]

/-- The program's result at (b, ch, n, 0) is the output array at (b, n, ch). -/
theorem res_at (c : Dev nD) (b : Fin 8) (ch : Fin 96) (n : Fin 3136) (z : Fin 1) :
    resArr m c (ix4 b ch n z)
      = outArr m c (ix3 b (⟨n.val, by have := n.isLt; omega⟩ : Fin 3200) (⟨ch.val, by have := ch.isLt; omega⟩ : Fin 128)) := by
  rw [res_eq]
  generalize outArr m c = A
  refine (broadcastInDim_apply _ bcast_S8x96x3136_S8x96x3136x1_0_1_2 _ (ix4 b ch n z) (ix3 b ch n) (fun a => match a with
    | ⟨0, _⟩ => by show b.val = if (8 : Nat) = 1 then 0 else b.val; rw [if_neg (by decide)]
    | ⟨1, _⟩ => by show ch.val = if (96 : Nat) = 1 then 0 else ch.val; rw [if_neg (by decide)]
    | ⟨2, _⟩ => by show n.val = if (3136 : Nat) = 1 then 0 else n.val; rw [if_neg (by decide)])).trans ?_
  refine (transpose_apply _ _ transposes_S8x3136x96_S8x96x3136_0_2_1 (ix3 b ch n) (ix3 b n ch)
    (fun a => match a with | ⟨0, _⟩ => rfl | ⟨1, _⟩ => rfl | ⟨2, _⟩ => rfl)).trans ?_
  exact extractStridedSlice_apply ![0, 0, 0] A slices_S8x3200x128_S8x3136x96_0_0_0 (ix3 b n ch)
    (ix3 b (⟨n.val, by have := n.isLt; omega⟩ : Fin 3200) (⟨ch.val, by have := ch.isLt; omega⟩ : Fin 128)) (fun a => match a with
    | ⟨0, _⟩ => by show b.val = 0 + b.val; omega
    | ⟨1, _⟩ => by show n.val = 0 + n.val; omega
    | ⟨2, _⟩ => by show ch.val = 0 + ch.val; omega)

/-- The kernel program's run with its result buffer named. -/
theorem run_value : θ_run defs (onTc (τ := τ) (main (F := Ideal))) ⟨m, fun _ => 0, ρ⟩ (fun r => ∀ c : Dev nD,
      r.2.mem ((c.tc : Thread nD τ).loc main_v22) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).2 main_v22 (Pipeline.mem_restRefs_of main_v22 (by decide) (by decide)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.ArrayTail

end
-- ==== Proof.Glue.lean ====
/-
  The kernel program's result at (b, ch, n, 0), from the argument arrays. Node n lies in tile tt = n / 64 at local row
  nl = n % 64; its 18 index words sit at rows n * 18 + k of the flattened index columns, that is rows nl * 18 + k of the
  tile's block; a word in range names a node below 3136, so the table row it selects is that node's channels; and the
  table's high part plus its remainder, t + (t - t), is t because every entry t is a real number. What is left is the
  slot-by-slot sum, which is the end-by-end sum.
-/
import proofs.«419923_j63213328662785_3_alg».proof.Proof.Body
import proofs.«419923_j63213328662785_3_alg».proof.Proof.HostPre
import proofs.«419923_j63213328662785_3_alg».proof.Proof.ArrayTail

noncomputable section

open scoped BigOperators

namespace Cert.KernelIdeal.Glue

open Idealize.ShloMosaic Idealize.ShloMosaic.TcCoe Idealize.ShloMosaic.ValueIdx Idealize.SL.Sem
open Cert.KernelIdeal Cert.KernelIdeal.Gen Cert.EdgeStat Cert.KernelIdeal.Names Cert.KernelIdeal.HostPre Cert.KernelIdeal.ArrayTail Cert.KernelIdeal.Body Cert.KernelIdeal.BodyGather

variable (m : (ℓ : Loc nD τ sig) → Buf (Elt Ideal) ℓ)

/-- A real number plus its difference with itself is itself. -/
theorem add_sub_self_real (t : EReal) (h : ∃ r : ℝ, t = (r : EReal)) : t + (t - t) = t := by
  obtain ⟨r, rfl⟩ := h
  rw [← EReal.coe_sub, sub_self, EReal.coe_zero, add_zero]

/-- Every entry of the table is a real number when the argument arrays' entries are. -/
theorem tableAt_real (x xp : SX.Idx → EReal) (hx : ∀ i, ∃ r : ℝ, x i = (r : EReal)) (hxp : ∀ i, ∃ r : ℝ, xp i = (r : EReal))
    (b : Fin 8) (r : Fin 3200) (col : Fin 192) : ∃ r' : ℝ, tableAt x xp b r col = (r' : EReal) := by
  unfold tableAt
  split_ifs
  · exact hx _
  · exact hxp _
  · exact ⟨0, EReal.coe_zero.symm⟩

/-- Row r of a grid point's two table blocks, added, is row r of batch b's table. -/
theorem row_eq (c : Dev nD) (hx : ∀ i, ∃ r : ℝ, argX m c i = (r : EReal)) (hxp : ∀ i, ∃ r : ℝ, argXP m c i = (r : EReal))
    (b : Fin 8) (tt : Fin 50) (r : Fin 3200) (col : Fin 192) :
    rowAt (hiBlk m c (pt b tt)) (loBlk m c (pt b tt)) r col = tableAt (argX m c) (argXP m c) b r col := by
  unfold rowAt
  rw [blk_hi, blk_lo, hi_at, lo_at]
  exact add_sub_self_real _ (tableAt_real _ _ hx hxp b r col)

/-- A table row below 3136: the weight channel ch of that node sits in column 96 + ch … -/
theorem table_weight (x xp : SX.Idx → EReal) (b : Fin 8) (nd : Fin 3136) (ch : Fin 96) :
    tableAt x xp b (⟨nd.val, by have := nd.isLt; omega⟩ : Fin 3200) (⟨96 + ch.val, by have := ch.isLt; omega⟩ : Fin 192)
      = xp (ix4 b ch nd (0 : Fin 1)) := by
  unfold tableAt
  rw [dif_pos (show ((⟨nd.val, _⟩ : Fin 3200)).val < 3136 from nd.isLt),
    dif_neg (show ¬ ((⟨96 + ch.val, _⟩ : Fin 192)).val < 96 from by simp)]
  congr 1
  funext a
  match a with
  | ⟨0, _⟩ => rfl
  | ⟨1, _⟩ => exact Fin.ext (by simp)
  | ⟨2, _⟩ => rfl
  | ⟨3, _⟩ => rfl

/-- … and its feature channel c' in column c'. -/
theorem table_feature (x xp : SX.Idx → EReal) (b : Fin 8) (nd : Fin 3136) (c' : Fin 96) :
    tableAt x xp b (⟨nd.val, by have := nd.isLt; omega⟩ : Fin 3200) (⟨c'.val, by have := c'.isLt; omega⟩ : Fin 192)
      = x (ix4 b c' nd (0 : Fin 1)) := by
  unfold tableAt
  rw [dif_pos (show ((⟨nd.val, _⟩ : Fin 3200)).val < 3136 from nd.isLt),
    dif_pos (show ((⟨c'.val, _⟩ : Fin 192)).val < 96 from c'.isLt)]

/-- The index word of edge (n, k), end s, as the tile's index block holds it: the word of the node it names. -/
theorem flat_word (ei : SE.Idx → BitVec 32) (hI : ∀ i, 0 ≤ (ei i).toInt ∧ (ei i).toInt < 3136) (s : Fin 2) (b : Fin 8)
    (tt : Fin 50) (nl : Fin 64) (k : Fin 18) (n : Fin 3136) (hn : n.val = tt.val * 64 + nl.val) :
    flatIdxAt ei s b (⟨tt.val * 1152 + (⟨nl.val * 18 + k.val, by have := nl.isLt; have := k.isLt; omega⟩ : Fin 1152).val,
        by have := tt.isLt; have := nl.isLt; have := k.isLt; simp only; omega⟩ : Fin 57600)
      = BitVec.ofNat 32 (node (ei (ix4 s b n k))).val := by
  have hk := k.isLt
  have hnl := nl.isLt
  have hq1 : (tt.val * 1152 + (nl.val * 18 + k.val)) / 18 = n.val := by omega
  have hq2 : (tt.val * 1152 + (nl.val * 18 + k.val)) % 18 = k.val := by omega
  unfold flatIdxAt
  simp only [hq1, hq2, Fin.eta]
  rw [dif_pos n.isLt]
  obtain ⟨h0, h1⟩ := hI (ix4 s b n k)
  rw [node_val (toNat_lt_of_range h0 h1)]
  simp

/-- THE KERNEL'S RESULT at (b, ch, n, 0), for real-valued float arguments and index words in range. -/
theorem kernel_at (c : Dev nD) (hx : ∀ i, ∃ r : ℝ, argX m c i = (r : EReal)) (hxp : ∀ i, ∃ r : ℝ, argXP m c i = (r : EReal))
    (hI : ∀ i, 0 ≤ (argEI m c i).toInt ∧ (argEI m c i).toInt < 3136)
    (b : Fin 8) (ch : Fin 96) (n : Fin 3136) (z : Fin 1) :
    resArr m c (ix4 b ch n z) = resultAt (argX m c) (argXP m c) (argEI m c) b ch n := by
  have hn := n.isLt
  obtain ⟨tt, htt⟩ : ∃ tt : Fin 50, tt.val = n.val / 64 := ⟨⟨n.val / 64, by omega⟩, rfl⟩
  obtain ⟨nl, hnl⟩ : ∃ nl : Fin 64, nl.val = n.val % 64 := ⟨⟨n.val % 64, Nat.mod_lt _ (by norm_num)⟩, rfl⟩
  have hdecomp : n.val = tt.val * 64 + nl.val := by omega
  rw [res_at]
  have e : (⟨n.val, by omega⟩ : Fin 3200) = (⟨tt.val * 64 + nl.val, by omega⟩ : Fin 3200) := Fin.ext hdecomp
  rw [e, out_arr_at m c b tt nl]
  have hi : ∀ k : Fin 18,
      iiBlk m c (pt b tt) (ix3 (0 : Fin 1) (⟨nl.val * 18 + k.val, by have := nl.isLt; have := k.isLt; omega⟩ : Fin 1152) (0 : Fin 1))
        = BitVec.ofNat 32 ((⟨(node (argEI m c (ix4 (1 : Fin 2) b n k))).val,
            by have := (node (argEI m c (ix4 (1 : Fin 2) b n k))).isLt; omega⟩ : Fin 3200)).val := fun k => by
    rw [blk_ii, ii_at]
    exact flat_word (argEI m c) hI 1 b tt nl k n hdecomp
  have hj : ∀ k : Fin 18,
      ijBlk m c (pt b tt) (ix3 (0 : Fin 1) (⟨nl.val * 18 + k.val, by have := nl.isLt; have := k.isLt; omega⟩ : Fin 1152) (0 : Fin 1))
        = BitVec.ofNat 32 ((⟨(node (argEI m c (ix4 (0 : Fin 2) b n k))).val,
            by have := (node (argEI m c (ix4 (0 : Fin 2) b n k))).isLt; omega⟩ : Fin 3200)).val := fun k => by
    rw [blk_ij, ij_at]
    exact flat_word (argEI m c) hI 0 b tt nl k n hdecomp
  refine (out_at (hiBlk m c (pt b tt)) (loBlk m c (pt b tt)) (iiBlk m c (pt b tt)) (ijBlk m c (pt b tt)) nl ch _ _ hi hj).trans ?_
  rw [out_forms]
  unfold resultAt
  simp only [row_eq m c hx hxp, table_weight, table_feature]

end Cert.KernelIdeal.Glue

end
-- ==== Proof.RefGather.lean ====
/-
  The reference's gather read at an index. The operand is [8, 96, 3136] (batch, channel, node), the start indices
  [8, 3136, 18, 1] (batch, node, slot, one component), the result [8, 96, 3136, 18]: batch is a batching axis of both,
  the channel axis is carried whole (the slice is 1 × 96 × 1), and the node axis is indexed by the start index, read as
  a signed integer and clamped into 0 … 3135. So entry (b, ch, n, k) of the result is the operand at
  (b, ch, clamp (idx (b, n, k, 0))).
-/
import proofs.«419923_j63213328662785_3_alg».proof.ReferenceIdeal
import proofs.«419923_j63213328662785_3_alg».proof.Proof.Gen.ReferenceIdeal
import Idealize.ShloMosaic.Lib.ValueIdx

noncomputable section

open scoped BigOperators

namespace Cert.ReferenceIdeal.RefGather

open Idealize.ShloMosaic Idealize.ShloMosaic.ValueIdx
open Cert.ReferenceIdeal

variable [Cert.ReferenceIdeal.Facts]

local notation "G" => gather_S8x96x3136_S8x3136x18x1_S8x96x3136x18_1_2_0_0_2_3_1961

/-- The three operand axes, as literal members of Fin 3. -/
private abbrev ax0 : Fin S8x96x3136.rank := ⟨0, by decide⟩
private abbrev ax1 : Fin S8x96x3136.rank := ⟨1, by decide⟩
private abbrev ax2 : Fin S8x96x3136.rank := ⟨2, by decide⟩

/-- Batch axis: no start index, no offset; the batching coordinate is the result's batch coordinate. -/
private theorem coord0 (idx : IVec S8x3136x18x1 32) (b : Fin 8) (ch : Fin 96) (n : Fin 3136) (k : Fin 18) :
    GatherDims.start G (ix4 b ch n k) idx ax0 + GatherDims.batchCoord G (ix4 b ch n k) ax0
      + GatherDims.offCoord G (ix4 b ch n k) ax0 = b.val := by
  have hb : ax0 ∈ GatherDims.operandBatchingDims G :=
    show ax0 ∈ ([ax0] : List (Fin S8x96x3136.rank)) from List.mem_singleton.mpr rfl
  rw [GatherDims.start_batching G _ _ _ hb,
    GatherDims.offCoord_eq_zero G _ _ (fun h => ((GatherDims.mem_sKept G _).mp h).2 hb)]
  simp only [Nat.zero_add, Nat.add_zero]
  unfold GatherDims.batchCoord
  rw [dif_pos hb]
  rfl

/-- Channel axis: no start index, not a batching axis; the offset coordinate is the result's channel coordinate. -/
private theorem coord1 (idx : IVec S8x3136x18x1 32) (b : Fin 8) (ch : Fin 96) (n : Fin 3136) (k : Fin 18) :
    GatherDims.start G (ix4 b ch n k) idx ax1 + GatherDims.batchCoord G (ix4 b ch n k) ax1
      + GatherDims.offCoord G (ix4 b ch n k) ax1 = ch.val := by
  have hnb : ax1 ∉ GatherDims.operandBatchingDims G :=
    show ax1 ∉ ([ax0] : List (Fin S8x96x3136.rank)) from by decide
  have hns : ax1 ∉ GatherDims.startIndexMap G :=
    show ax1 ∉ ([ax2] : List (Fin S8x96x3136.rank)) from by decide
  have hk : ax1 ∈ GatherDims.sKept G :=
    (GatherDims.mem_sKept G _).mpr ⟨show ax1 ∉ ([ax2] : List (Fin S8x96x3136.rank)) from by decide, hnb⟩
  rw [GatherDims.batchCoord_eq_zero G _ _ hnb]
  unfold GatherDims.start
  rw [dif_neg hns]
  simp only [Nat.zero_add, Nat.add_zero]
  unfold GatherDims.offCoord
  rw [dif_pos hk]
  rfl

/-- Node axis: collapsed and not batching, so only the start index counts: the word at (b, n, k, 0), read signed
    and clamped to the last node. -/
private theorem coord2 (idx : IVec S8x3136x18x1 32) (b : Fin 8) (ch : Fin 96) (n : Fin 3136) (k : Fin 18) :
    GatherDims.start G (ix4 b ch n k) idx ax2 + GatherDims.batchCoord G (ix4 b ch n k) ax2
      + GatherDims.offCoord G (ix4 b ch n k) ax2 = min (idx (ix4 b n k (0 : Fin 1))).toInt.toNat 3135 := by
  have hnb : ax2 ∉ GatherDims.operandBatchingDims G :=
    show ax2 ∉ ([ax0] : List (Fin S8x96x3136.rank)) from by decide
  have hs : ax2 ∈ GatherDims.startIndexMap G :=
    show ax2 ∈ ([ax2] : List (Fin S8x96x3136.rank)) from List.mem_singleton.mpr rfl
  have hc : ax2 ∈ GatherDims.collapsedSliceDims G :=
    show ax2 ∈ ([ax2] : List (Fin S8x96x3136.rank)) from List.mem_singleton.mpr rfl
  rw [GatherDims.batchCoord_eq_zero G _ _ hnb,
    GatherDims.offCoord_eq_zero G _ _ (fun h => ((GatherDims.mem_sKept G _).mp h).1 hc)]
  simp only [Nat.add_zero]
  unfold GatherDims.start
  rw [dif_pos hs]
  have hsi : GatherDims.siIdx G (ix4 b ch n k)
      ⟨List.idxOf ax2 (GatherDims.startIndexMap G), List.idxOf_lt_length_iff.2 hs⟩ = ix4 b n k (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The gather at (b, ch, n, k). -/
theorem gather_at {α : Type} (x : S8x96x3136.Idx → α) (idx : IVec S8x3136x18x1 32)
    (b : Fin 8) (ch : Fin 96) (n : Fin 3136) (k : Fin 18) :
    Host.gather gather_S8x96x3136_S8x3136x18x1_S8x96x3136x18_1_2_0_0_2_3_1961 x idx (ix4 b ch n k)
      = x (ix3 b ch (⟨min (idx (ix4 b n k (0 : Fin 1))).toInt.toNat 3135, by omega⟩ : Fin 3136)) := by
  unfold Host.gather
  congr 1
  funext a
  refine Fin.ext ?_
  match a with
  | ⟨0, _⟩ => exact coord0 idx b ch n k
  | ⟨1, _⟩ => exact coord1 idx b ch n k
  | ⟨2, _⟩ => exact coord2 idx b ch n k

end Cert.ReferenceIdeal.RefGather

end
-- ==== Proof.RefValue.lean ====
/-
  The reference read at an index. Its four gathers pick, for the edge (b, n, k), the feature and weight rows of the
  two end nodes; an index word in range is neither wrapped (it is not negative) nor clamped (it is below 3136), so
  the node read is the one the word names. The rest is the reference's arithmetic, operation by operation: the channel
  means, variances and covariance, the similarity factor, and the three sums over the 18 slots.
-/
import proofs.«419923_j63213328662785_3_alg».proof.Proof.Gen.ReferenceIdeal.Read
import proofs.«419923_j63213328662785_3_alg».proof.Proof.RefGather
import proofs.«419923_j63213328662785_3_alg».proof.Proof.Spec
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.EdgeStat Cert.ReferenceIdeal.RefGather

/-- A word in range is not negative: the signed comparison with zero gives the bit 0. -/
theorem slt_zero_of_range {w : BitVec 32} (h0 : 0 ≤ w.toInt) : IntOp.cmpi .slt w 0#32 = 0#1 := by
  unfold IntOp.cmpi
  have : w.slt 0#32 = false := by
    rw [BitVec.slt_eq_decide]
    simp only [BitVec.toInt_zero, decide_eq_false_iff_not, not_lt]
    exact h0
  simp only [this]
  rfl

/-- A word in range, read as a signed integer and clamped into 0 … 3135, is the node it names. -/
theorem clamp_of_range {w : BitVec 32} (h0 : 0 ≤ w.toInt) (h1 : w.toInt < 3136) :
    min w.toInt.toNat 3135 = (node w).val := by
  have hlt := toNat_lt_of_range h0 h1
  rw [node_val hlt]
  have := BitVec.toInt_eq_toNat_cond w
  split_ifs at this <;> omega

/-- End 1 of the edge (b, n, k): the second half of the index array, with its unit axis dropped. -/
theorem v3_at (x2 : IVec S2x8x3136x18 32) (b : Fin 8) (n : Fin 3136) (k : Fin 18) :
    Read.val_main_v3 (F := Ideal) x2 (ix3 b n k) = x2 (ix4 (1 : Fin 2) b n k) := by
  rw [Read.val_main_v3_apply, Read.val_main_v2_apply]
  congr 1
  funext a
  have hb := b.isLt; have hn := n.isLt; have hk := k.isLt
  match a with
  | ⟨0, _⟩ => exact Fin.ext (by show 1 + 0 = 1; rfl)
  | ⟨1, _⟩ => exact Fin.ext (by show ((b.val * 3136 + n.val) * 18 + k.val) / 56448 % 8 = b.val; omega)
  | ⟨2, _⟩ => exact Fin.ext (by show ((b.val * 3136 + n.val) * 18 + k.val) / 18 % 3136 = n.val; omega)
  | ⟨3, _⟩ => exact Fin.ext (by show ((b.val * 3136 + n.val) * 18 + k.val) % 18 = k.val; omega)

/-- End 0 of the edge (b, n, k): the first half of the index array, with its unit axis dropped. -/
theorem v5_at (x2 : IVec S2x8x3136x18 32) (b : Fin 8) (n : Fin 3136) (k : Fin 18) :
    Read.val_main_v5 (F := Ideal) x2 (ix3 b n k) = x2 (ix4 (0 : Fin 2) b n k) := by
  rw [Read.val_main_v5_apply, Read.val_main_v4_apply]
  congr 1
  funext a
  have hb := b.isLt; have hn := n.isLt; have hk := k.isLt
  match a with
  | ⟨0, _⟩ => exact Fin.ext (by show 0 = 0; rfl)
  | ⟨1, _⟩ => exact Fin.ext (by show ((b.val * 3136 + n.val) * 18 + k.val) / 56448 % 8 = b.val; omega)
  | ⟨2, _⟩ => exact Fin.ext (by show ((b.val * 3136 + n.val) * 18 + k.val) / 18 % 3136 = n.val; omega)
  | ⟨3, _⟩ => exact Fin.ext (by show ((b.val * 3136 + n.val) * 18 + k.val) % 18 = k.val; omega)

/-- The wrapped start index of a word in range is the word itself (four copies of the same three operations). -/
theorem v10_at (x2 : IVec S2x8x3136x18 32) (hI : ∀ i, 0 ≤ (x2 i).toInt ∧ (x2 i).toInt < 3136)
    (b : Fin 8) (n : Fin 3136) (k : Fin 18) :
    Read.val_main_v10 (F := Ideal) x2 (ix3 b n k) = x2 (ix4 (1 : Fin 2) b n k) := by
  rw [Read.val_main_v10_apply, Read.val_main_v7_apply, Read.val_main_v6_apply, Read.val_main_c_apply, v3_at,
    slt_zero_of_range (hI _).1, select_zero]

/-- The same for end 0, second gather. -/
theorem v17_at (x2 : IVec S2x8x3136x18 32) (hI : ∀ i, 0 ≤ (x2 i).toInt ∧ (x2 i).toInt < 3136)
    (b : Fin 8) (n : Fin 3136) (k : Fin 18) :
    Read.val_main_v17 (F := Ideal) x2 (ix3 b n k) = x2 (ix4 (0 : Fin 2) b n k) := by
  rw [Read.val_main_v17_apply, Read.val_main_v14_apply, Read.val_main_v13_apply, Read.val_main_c_1_apply, v5_at,
    slt_zero_of_range (hI _).1, select_zero]

/-- The same for end 1, third gather. -/
theorem v24_at (x2 : IVec S2x8x3136x18 32) (hI : ∀ i, 0 ≤ (x2 i).toInt ∧ (x2 i).toInt < 3136)
    (b : Fin 8) (n : Fin 3136) (k : Fin 18) :
    Read.val_main_v24 (F := Ideal) x2 (ix3 b n k) = x2 (ix4 (1 : Fin 2) b n k) := by
  rw [Read.val_main_v24_apply, Read.val_main_v21_apply, Read.val_main_v20_apply, Read.val_main_c_3_apply, v3_at,
    slt_zero_of_range (hI _).1, select_zero]

/-- The same for end 0, fourth gather. -/
theorem v31_at (x2 : IVec S2x8x3136x18 32) (hI : ∀ i, 0 ≤ (x2 i).toInt ∧ (x2 i).toInt < 3136)
    (b : Fin 8) (n : Fin 3136) (k : Fin 18) :
    Read.val_main_v31 (F := Ideal) x2 (ix3 b n k) = x2 (ix4 (0 : Fin 2) b n k) := by
  rw [Read.val_main_v31_apply, Read.val_main_v28_apply, Read.val_main_v27_apply, Read.val_main_c_5_apply, v5_at,
    slt_zero_of_range (hI _).1, select_zero]

/-- The unit axis given to a start-index array reads the array at the same (b, n, k). -/
theorem idx11 (b : Fin 8) (n : Fin 3136) (k : Fin 18) (z : Fin 1) :
    Read.idx_main_v11 (ix4 b n k z) = ix3 b n k :=
  funext fun a => Fin.ext (by match a with | ⟨0, _⟩ => rfl | ⟨1, _⟩ => rfl | ⟨2, _⟩ => rfl)

/-- The feature array with its unit axis dropped, at (b, c, m). -/
theorem v0_at (x0 : FVec Ideal S8x96x3136x1 .f32) (b : Fin 8) (c : Fin 96) (m : Fin 3136) :
    Read.val_main_v0 (F := Ideal) x0 (ix3 b c m) = x0 (ix4 b c m (0 : Fin 1)) := by
  rw [Read.val_main_v0_apply]
  congr 1
  funext a
  have hb := b.isLt; have hc := c.isLt; have hm := m.isLt
  match a with
  | ⟨0, _⟩ => exact Fin.ext (by show ((b.val * 96 + c.val) * 3136 + m.val) / 301056 = b.val; omega)
  | ⟨1, _⟩ => exact Fin.ext (by show ((b.val * 96 + c.val) * 3136 + m.val) / 3136 % 96 = c.val; omega)
  | ⟨2, _⟩ => exact Fin.ext (by show ((b.val * 96 + c.val) * 3136 + m.val) / 1 % 3136 = m.val; omega)
  | ⟨3, _⟩ => rfl

/-- The weight array with its unit axis dropped, at (b, c, m). -/
theorem v1_at (x1 : FVec Ideal S8x96x3136x1 .f32) (b : Fin 8) (c : Fin 96) (m : Fin 3136) :
    Read.val_main_v1 (F := Ideal) x1 (ix3 b c m) = x1 (ix4 b c m (0 : Fin 1)) := by
  rw [Read.val_main_v1_apply]
  congr 1
  funext a
  have hb := b.isLt; have hc := c.isLt; have hm := m.isLt
  match a with
  | ⟨0, _⟩ => exact Fin.ext (by show ((b.val * 96 + c.val) * 3136 + m.val) / 301056 = b.val; omega)
  | ⟨1, _⟩ => exact Fin.ext (by show ((b.val * 96 + c.val) * 3136 + m.val) / 3136 % 96 = c.val; omega)
  | ⟨2, _⟩ => exact Fin.ext (by show ((b.val * 96 + c.val) * 3136 + m.val) / 1 % 3136 = m.val; omega)
  | ⟨3, _⟩ => rfl

/-- The clamped node of a word in range, as an index into the 3136 nodes. -/
theorem clampFin_of_range {w : BitVec 32} (h0 : 0 ≤ w.toInt) (h1 : w.toInt < 3136) :
    (⟨min w.toInt.toNat 3135, by omega⟩ : Fin 3136) = node w := Fin.ext (clamp_of_range h0 h1)

/-- x_i: the feature row of end 1's node. -/
theorem v12_at (x0 : FVec Ideal S8x96x3136x1 .f32) (x2 : IVec S2x8x3136x18 32)
    (hI : ∀ i, 0 ≤ (x2 i).toInt ∧ (x2 i).toInt < 3136) (b : Fin 8) (c : Fin 96) (n : Fin 3136) (k : Fin 18) :
    Read.val_main_v12 (F := Ideal) x0 x2 (ix4 b c n k)
      = x0 (ix4 b c (node (x2 (ix4 (1 : Fin 2) b n k))) (0 : Fin 1)) := by
  have hw : Read.val_main_v11 (F := Ideal) x2 (ix4 b n k (0 : Fin 1)) = x2 (ix4 (1 : Fin 2) b n k) := by
    rw [Read.val_main_v11_apply, idx11, v10_at x2 hI]
  unfold Read.val_main_v12
  rw [gather_at]
  have hm : (⟨min (Read.val_main_v11 (F := Ideal) x2 (ix4 b n k (0 : Fin 1))).toInt.toNat 3135, by omega⟩ : Fin 3136)
      = node (x2 (ix4 (1 : Fin 2) b n k)) :=
    Fin.ext (by show min _ 3135 = _; rw [hw]; exact clamp_of_range (hI _).1 (hI _).2)
  rw [hm, v0_at]

/-- x_j: the feature row of end 0's node. -/
theorem v19_at (x0 : FVec Ideal S8x96x3136x1 .f32) (x2 : IVec S2x8x3136x18 32)
    (hI : ∀ i, 0 ≤ (x2 i).toInt ∧ (x2 i).toInt < 3136) (b : Fin 8) (c : Fin 96) (n : Fin 3136) (k : Fin 18) :
    Read.val_main_v19 (F := Ideal) x0 x2 (ix4 b c n k)
      = x0 (ix4 b c (node (x2 (ix4 (0 : Fin 2) b n k))) (0 : Fin 1)) := by
  have hw : Read.val_main_v18 (F := Ideal) x2 (ix4 b n k (0 : Fin 1)) = x2 (ix4 (0 : Fin 2) b n k) := by
    rw [Read.val_main_v18_apply, show Read.idx_main_v18 (ix4 b n k (0 : Fin 1)) = ix3 b n k from idx11 b n k 0, v17_at x2 hI]
  unfold Read.val_main_v19
  rw [gather_at]
  have hm : (⟨min (Read.val_main_v18 (F := Ideal) x2 (ix4 b n k (0 : Fin 1))).toInt.toNat 3135, by omega⟩ : Fin 3136)
      = node (x2 (ix4 (0 : Fin 2) b n k)) :=
    Fin.ext (by show min _ 3135 = _; rw [hw]; exact clamp_of_range (hI _).1 (hI _).2)
  rw [hm, v0_at]

/-- xp_i: the weight row of end 1's node. -/
theorem v26_at (x1 : FVec Ideal S8x96x3136x1 .f32) (x2 : IVec S2x8x3136x18 32)
    (hI : ∀ i, 0 ≤ (x2 i).toInt ∧ (x2 i).toInt < 3136) (b : Fin 8) (c : Fin 96) (n : Fin 3136) (k : Fin 18) :
    Read.val_main_v26 (F := Ideal) x1 x2 (ix4 b c n k)
      = x1 (ix4 b c (node (x2 (ix4 (1 : Fin 2) b n k))) (0 : Fin 1)) := by
  have hw : Read.val_main_v25 (F := Ideal) x2 (ix4 b n k (0 : Fin 1)) = x2 (ix4 (1 : Fin 2) b n k) := by
    rw [Read.val_main_v25_apply, show Read.idx_main_v25 (ix4 b n k (0 : Fin 1)) = ix3 b n k from idx11 b n k 0, v24_at x2 hI]
  unfold Read.val_main_v26
  rw [gather_at]
  have hm : (⟨min (Read.val_main_v25 (F := Ideal) x2 (ix4 b n k (0 : Fin 1))).toInt.toNat 3135, by omega⟩ : Fin 3136)
      = node (x2 (ix4 (1 : Fin 2) b n k)) :=
    Fin.ext (by show min _ 3135 = _; rw [hw]; exact clamp_of_range (hI _).1 (hI _).2)
  rw [hm, v1_at]

/-- xp_j: the weight row of end 0's node. -/
theorem v33_at (x1 : FVec Ideal S8x96x3136x1 .f32) (x2 : IVec S2x8x3136x18 32)
    (hI : ∀ i, 0 ≤ (x2 i).toInt ∧ (x2 i).toInt < 3136) (b : Fin 8) (c : Fin 96) (n : Fin 3136) (k : Fin 18) :
    Read.val_main_v33 (F := Ideal) x1 x2 (ix4 b c n k)
      = x1 (ix4 b c (node (x2 (ix4 (0 : Fin 2) b n k))) (0 : Fin 1)) := by
  have hw : Read.val_main_v32 (F := Ideal) x2 (ix4 b n k (0 : Fin 1)) = x2 (ix4 (0 : Fin 2) b n k) := by
    rw [Read.val_main_v32_apply, show Read.idx_main_v32 (ix4 b n k (0 : Fin 1)) = ix3 b n k from idx11 b n k 0, v31_at x2 hI]
  unfold Read.val_main_v33
  rw [gather_at]
  have hm : (⟨min (Read.val_main_v32 (F := Ideal) x2 (ix4 b n k (0 : Fin 1))).toInt.toNat 3135, by omega⟩ : Fin 3136)
      = node (x2 (ix4 (0 : Fin 2) b n k)) :=
    Fin.ext (by show min _ 3135 = _; rw [hw]; exact clamp_of_range (hI _).1 (hI _).2)
  rw [hm, v1_at]

/-! ## The index maps of the keepdims sums and their broadcasts, at literal coordinates -/

/-- A [8,1,3136,18] entry reads the [8,3136,18] array at its batch, node and slot. -/
theorem idxKeep (b : Fin 8) (z : Fin 1) (n : Fin 3136) (k : Fin 18) :
    Read.idx_main_v35 (ix4 b z n k) = ix3 b n k :=
  funext fun a => Fin.ext (by match a with | ⟨0, _⟩ => rfl | ⟨1, _⟩ => rfl | ⟨2, _⟩ => rfl)

/-- The sum over the channel axis at (b, n, k) runs over the entries (b, c, n, k). -/
theorem idxChan (b : Fin 8) (n : Fin 3136) (k : Fin 18) (c : Fin 96) :
    Read.idx_main_v34 (ix3 b n k) c = ix4 b c n k :=
  funext fun a => Fin.ext (by match a with | ⟨0, _⟩ => rfl | ⟨1, _⟩ => rfl | ⟨2, _⟩ => rfl | ⟨3, _⟩ => rfl)

/-- Broadcasting a keepdims statistic along the channels reads it at channel 0. -/
theorem idxBcast (b : Fin 8) (c : Fin 96) (n : Fin 3136) (k : Fin 18) :
    Read.idx_main_v42 (ix4 b c n k) = ix4 b (0 : Fin 1) n k :=
  funext fun a => Fin.ext (by match a with | ⟨0, _⟩ => rfl | ⟨1, _⟩ => rfl | ⟨2, _⟩ => rfl | ⟨3, _⟩ => rfl)

/-- A keepdims channel sum started from the zero word and divided by the float 96 is the channel mean. -/
theorem keepMean_eq (V : S8x96x3136x18.Idx → EReal) (b : Fin 8) (z : Fin 1) (n : Fin 3136) (k : Fin 18) :
    Ideal.div (Ideal.ofBits .f32 0x00000000#32
        + ∑ c : Fin 96, V (Read.idx_main_v34 (Read.idx_main_v35 (ix4 b z n k)) c)) (Ideal.ofBits .f32 0x42C00000#32)
      = chMean (fun c => V (ix4 b c n k)) := by
  rw [Ideal.ofBits_zero_f32, zero_add, idxKeep]
  simp only [idxChan]
  rfl

/-- The mean of x_i over the channels. -/
theorem v37_at (x0 : FVec Ideal S8x96x3136x1 .f32) (x2 : IVec S2x8x3136x18 32)
    (b : Fin 8) (z : Fin 1) (n : Fin 3136) (k : Fin 18) :
    Read.val_main_v37 (F := Ideal) x0 x2 (ix4 b z n k)
      = chMean (fun c => Read.val_main_v12 (F := Ideal) x0 x2 (ix4 b c n k)) := by
  rw [Read.val_main_v37_apply, Read.val_main_v35_apply, Read.val_main_v36_apply, Read.val_main_cst_7_apply,
    Read.val_main_v34_apply, Read.val_main_cst_apply]
  exact keepMean_eq _ b z n k

/-- The mean of x_j over the channels. -/
theorem v41_at (x0 : FVec Ideal S8x96x3136x1 .f32) (x2 : IVec S2x8x3136x18 32)
    (b : Fin 8) (z : Fin 1) (n : Fin 3136) (k : Fin 18) :
    Read.val_main_v41 (F := Ideal) x0 x2 (ix4 b z n k)
      = chMean (fun c => Read.val_main_v19 (F := Ideal) x0 x2 (ix4 b c n k)) := by
  rw [Read.val_main_v41_apply, Read.val_main_v39_apply, Read.val_main_v40_apply, Read.val_main_cst_9_apply,
    Read.val_main_v38_apply, Read.val_main_cst_8_apply]
  exact keepMean_eq _ b z n k

/-- The squared deviation of x_i from its mean, at one channel. -/
theorem v44_at (x0 : FVec Ideal S8x96x3136x1 .f32) (x2 : IVec S2x8x3136x18 32)
    (b : Fin 8) (c : Fin 96) (n : Fin 3136) (k : Fin 18) :
    Read.val_main_v44 (F := Ideal) x0 x2 (ix4 b c n k)
      = (Read.val_main_v12 (F := Ideal) x0 x2 (ix4 b c n k)
            - chMean (fun c' => Read.val_main_v12 (F := Ideal) x0 x2 (ix4 b c' n k)))
          * (Read.val_main_v12 (F := Ideal) x0 x2 (ix4 b c n k)
            - chMean (fun c' => Read.val_main_v12 (F := Ideal) x0 x2 (ix4 b c' n k))) := by
  rw [Read.val_main_v44_apply, Read.val_main_v43_apply, Read.val_main_v42_apply, idxBcast, v37_at]
  rfl

/-- The squared deviation of x_j from its mean, at one channel. -/
theorem v51_at (x0 : FVec Ideal S8x96x3136x1 .f32) (x2 : IVec S2x8x3136x18 32)
    (b : Fin 8) (c : Fin 96) (n : Fin 3136) (k : Fin 18) :
    Read.val_main_v51 (F := Ideal) x0 x2 (ix4 b c n k)
      = (Read.val_main_v19 (F := Ideal) x0 x2 (ix4 b c n k)
            - chMean (fun c' => Read.val_main_v19 (F := Ideal) x0 x2 (ix4 b c' n k)))
          * (Read.val_main_v19 (F := Ideal) x0 x2 (ix4 b c n k)
            - chMean (fun c' => Read.val_main_v19 (F := Ideal) x0 x2 (ix4 b c' n k))) := by
  rw [Read.val_main_v51_apply, Read.val_main_v50_apply, Read.val_main_v49_apply,
    show Read.idx_main_v49 (ix4 b c n k) = ix4 b (0 : Fin 1) n k from idxBcast b c n k, v41_at]
  rfl

/-- The variance of x_i over the channels. -/
theorem v48_at (x0 : FVec Ideal S8x96x3136x1 .f32) (x2 : IVec S2x8x3136x18 32)
    (b : Fin 8) (z : Fin 1) (n : Fin 3136) (k : Fin 18) :
    Read.val_main_v48 (F := Ideal) x0 x2 (ix4 b z n k)
      = chMean (fun c => (Read.val_main_v12 (F := Ideal) x0 x2 (ix4 b c n k)
            - chMean (fun c' => Read.val_main_v12 (F := Ideal) x0 x2 (ix4 b c' n k)))
          * (Read.val_main_v12 (F := Ideal) x0 x2 (ix4 b c n k)
            - chMean (fun c' => Read.val_main_v12 (F := Ideal) x0 x2 (ix4 b c' n k)))) := by
  rw [Read.val_main_v48_apply, Read.val_main_v46_apply, Read.val_main_v47_apply, Read.val_main_cst_11_apply,
    Read.val_main_v45_apply, Read.val_main_cst_10_apply]
  refine (keepMean_eq _ b z n k).trans ?_
  simp only [v44_at]

/-- The variance of x_j over the channels. -/
theorem v55_at (x0 : FVec Ideal S8x96x3136x1 .f32) (x2 : IVec S2x8x3136x18 32)
    (b : Fin 8) (z : Fin 1) (n : Fin 3136) (k : Fin 18) :
    Read.val_main_v55 (F := Ideal) x0 x2 (ix4 b z n k)
      = chMean (fun c => (Read.val_main_v19 (F := Ideal) x0 x2 (ix4 b c n k)
            - chMean (fun c' => Read.val_main_v19 (F := Ideal) x0 x2 (ix4 b c' n k)))
          * (Read.val_main_v19 (F := Ideal) x0 x2 (ix4 b c n k)
            - chMean (fun c' => Read.val_main_v19 (F := Ideal) x0 x2 (ix4 b c' n k)))) := by
  rw [Read.val_main_v55_apply, Read.val_main_v53_apply, Read.val_main_v54_apply, Read.val_main_cst_13_apply,
    Read.val_main_v52_apply, Read.val_main_cst_12_apply]
  refine (keepMean_eq _ b z n k).trans ?_
  simp only [v51_at]

/-- The mean of the products x_i · x_j over the channels. -/
theorem v60_at (x0 : FVec Ideal S8x96x3136x1 .f32) (x2 : IVec S2x8x3136x18 32)
    (b : Fin 8) (z : Fin 1) (n : Fin 3136) (k : Fin 18) :
    Read.val_main_v60 (F := Ideal) x0 x2 (ix4 b z n k)
      = chMean (fun c => Read.val_main_v12 (F := Ideal) x0 x2 (ix4 b c n k)
          * Read.val_main_v19 (F := Ideal) x0 x2 (ix4 b c n k)) := by
  rw [Read.val_main_v60_apply, Read.val_main_v58_apply, Read.val_main_v59_apply, Read.val_main_cst_15_apply,
    Read.val_main_v57_apply, Read.val_main_cst_14_apply]
  refine (keepMean_eq _ b z n k).trans ?_
  simp only [Read.val_main_v56_apply]
  rfl

/-- The similarity factor of the edge (b, n, k), from the two gathered feature rows. -/
theorem v84_at (x0 : FVec Ideal S8x96x3136x1 .f32) (x2 : IVec S2x8x3136x18 32)
    (b : Fin 8) (z : Fin 1) (n : Fin 3136) (k : Fin 18) :
    Read.val_main_v84 (F := Ideal) x0 x2 (ix4 b z n k)
      = sff (fun c => Read.val_main_v12 (F := Ideal) x0 x2 (ix4 b c n k))
          (fun c => Read.val_main_v19 (F := Ideal) x0 x2 (ix4 b c n k)) := by
  rw [Read.val_main_v84_apply, Read.val_main_v83_apply, Read.val_main_cst_22_apply, Read.val_main_v82_apply,
    Read.val_main_v73_apply, Read.val_main_v81_apply, Read.val_main_v67_apply, Read.val_main_v72_apply,
    Read.val_main_v77_apply, Read.val_main_v80_apply, Read.val_main_v65_apply, Read.val_main_v66_apply,
    Read.val_main_cst_17_apply, Read.val_main_v64_apply, Read.val_main_v63_apply, Read.val_main_cst_16_apply,
    Read.val_main_v70_apply, Read.val_main_v71_apply, Read.val_main_cst_18_apply, Read.val_main_v68_apply,
    Read.val_main_v69_apply, Read.val_main_v75_apply, Read.val_main_v74_apply, Read.val_main_cst_19_apply,
    Read.val_main_v76_apply, Read.val_main_cst_20_apply, Read.val_main_v62_apply, Read.val_main_v61_apply,
    Read.val_main_v78_apply, Read.val_main_v79_apply, Read.val_main_cst_21_apply,
    v37_at, v41_at, v48_at, v55_at, v60_at]
  rfl

/-! ## The three sums over the slots -/

/-- The sum over the slot axis at (b, ch, n) runs over the entries (b, ch, n, k). -/
theorem idxSlot (b : Fin 8) (ch : Fin 96) (n : Fin 3136) (k : Fin 18) :
    Read.idx_main_v89 (ix3 b ch n) k = ix4 b ch n k :=
  funext fun a => Fin.ext (by match a with | ⟨0, _⟩ => rfl | ⟨1, _⟩ => rfl | ⟨2, _⟩ => rfl | ⟨3, _⟩ => rfl)

/-- The result's unit axis reads the summed array at the same (b, ch, n). -/
theorem idxOut (b : Fin 8) (ch : Fin 96) (n : Fin 3136) (z : Fin 1) :
    Read.idx_main_v94 (ix4 b ch n z) = ix3 b ch n :=
  funext fun a => Fin.ext (by match a with | ⟨0, _⟩ => rfl | ⟨1, _⟩ => rfl | ⟨2, _⟩ => rfl)

/-- One slot's scaled gap: |xp_i - xp_j| times the edge's similarity factor. -/
theorem v88_at (x0 x1 : FVec Ideal S8x96x3136x1 .f32) (x2 : IVec S2x8x3136x18 32)
    (b : Fin 8) (ch : Fin 96) (n : Fin 3136) (k : Fin 18) :
    Read.val_main_v88 (F := Ideal) x0 x1 x2 (ix4 b ch n k)
      = max (Read.val_main_v26 (F := Ideal) x1 x2 (ix4 b ch n k) - Read.val_main_v33 (F := Ideal) x1 x2 (ix4 b ch n k))
            (-(Read.val_main_v26 (F := Ideal) x1 x2 (ix4 b ch n k) - Read.val_main_v33 (F := Ideal) x1 x2 (ix4 b ch n k)))
          * sff (fun c => Read.val_main_v12 (F := Ideal) x0 x2 (ix4 b c n k))
              (fun c => Read.val_main_v19 (F := Ideal) x0 x2 (ix4 b c n k)) := by
  rw [Read.val_main_v88_apply, Read.val_main_v86_apply, Read.val_main_v85_apply, Read.val_main_v87_apply,
    show Read.idx_main_v87 (ix4 b ch n k) = ix4 b (0 : Fin 1) n k from idxBcast b ch n k, v84_at]
  rfl

/-- The reference's result from its four gathered rows: the two ends' weights summed and added, then the scaled gaps. -/
theorem ref_rows (x0 x1 : FVec Ideal S8x96x3136x1 .f32) (x2 : IVec S2x8x3136x18 32)
    (b : Fin 8) (ch : Fin 96) (n : Fin 3136) (z : Fin 1) :
    Read.val_main_v94 (F := Ideal) x0 x1 x2 (ix4 b ch n z)
      = outEndwise (fun k => Read.val_main_v26 (F := Ideal) x1 x2 (ix4 b ch n k))
          (fun k => Read.val_main_v33 (F := Ideal) x1 x2 (ix4 b ch n k))
          (fun k => sff (fun c => Read.val_main_v12 (F := Ideal) x0 x2 (ix4 b c n k))
              (fun c => Read.val_main_v19 (F := Ideal) x0 x2 (ix4 b c n k))) := by
  rw [Read.val_main_v94_apply, idxOut, Read.val_main_v93_apply, Read.val_main_v92_apply, Read.val_main_v89_apply,
    Read.val_main_v90_apply, Read.val_main_v91_apply, Read.val_main_cst_23_apply, Read.val_main_cst_24_apply,
    Read.val_main_cst_25_apply]
  show (Ideal.ofBits .f32 0x00000000#32
          + ∑ k : Fin 18, Read.val_main_v26 (F := Ideal) x1 x2 (Read.idx_main_v89 (ix3 b ch n) k))
        + (Ideal.ofBits .f32 0x00000000#32
          + ∑ k : Fin 18, Read.val_main_v33 (F := Ideal) x1 x2 (Read.idx_main_v89 (ix3 b ch n) k))
        + (Ideal.ofBits .f32 0x00000000#32
          + ∑ k : Fin 18, Read.val_main_v88 (F := Ideal) x0 x1 x2 (Read.idx_main_v89 (ix3 b ch n) k)) = _
  simp only [Ideal.ofBits_zero_f32, zero_add, idxSlot, v88_at]
  rfl

/-- The reference's result at (b, ch, n, 0), for index words in range. -/
theorem ref_at (x0 x1 : FVec Ideal S8x96x3136x1 .f32) (x2 : IVec S2x8x3136x18 32)
    (hI : ∀ i, 0 ≤ (x2 i).toInt ∧ (x2 i).toInt < 3136) (b : Fin 8) (ch : Fin 96) (n : Fin 3136) (z : Fin 1) :
    Read.val_main_v94 (F := Ideal) x0 x1 x2 (ix4 b ch n z) = resultAt x0 x1 x2 b ch n := by
  rw [ref_rows]
  simp only [v12_at x0 x2 hI, v19_at x0 x2 hI, v26_at x1 x2 hI, v33_at x1 x2 hI]
  rfl

end Cert.ReferenceIdeal.RefValue

end
-- ==== Proof.PreFacts.lean ====
/-
  What the precondition says of the argument arrays: every entry of the two float arrays is a real number (its
  absolute value is below +infinity), and every index word is, read as a signed integer, at least 0 and below 3136.
-/
import proofs.«419923_j63213328662785_3_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

open scoped BigOperators

namespace Cert.PreFacts

open Idealize.ShloMosaic Idealize.ShloMosaic.ValueIdx Cert.Pre_finite_inputs

/-- The shape with no axes has exactly one index. -/
instance : Subsingleton S_.Idx := ⟨fun a b => funext fun d => d.elim0⟩

/-- The bit pattern with all exponent bits set and a zero significand denotes +infinity. -/
theorem inf_pattern : Ideal.ofBits .f32 0x7F800000#32 = (⊤ : EReal) := by simp [Ideal.ofBits, Ideal.ieee]

/-- An extended real whose absolute value, max y (-y), lies strictly below +infinity is neither infinity: it is a real. -/
theorem real_of_abs_lt_inf (y : EReal)
    (h : Ideal.cmp .olt (max y (-y)) (Ideal.ofBits .f32 0x7F800000#32) = 1#1) : ∃ r : ℝ, y = (r : EReal) := by
  rw [inf_pattern] at h
  induction y using EReal.rec with
  | bot => simp [Ideal.cmp] at h
  | coe r => exact ⟨r, rfl⟩
  | top => simp [Ideal.cmp] at h

/-- A word that compares signed-at-least 0 and signed-below 3136 has its signed value in [0, 3136). -/
theorem range_of_compares (w : BitVec 32) (h1 : IntOp.cmpi .sge w 0#32 = 1#1) (h2 : IntOp.cmpi .slt w 3136#32 = 1#1) :
    0 ≤ w.toInt ∧ w.toInt < 3136 := by
  unfold IntOp.cmpi at h1 h2
  rw [StableHlo.Predicate.ofBool_eq_one_iff] at h1 h2
  simp only [BitVec.sle, BitVec.slt, decide_eq_true_eq] at h1 h2
  have e0 : (0#32 : BitVec 32).toInt = 0 := by decide
  have e1 : (3136#32 : BitVec 32).toInt = 3136 := by decide
  rw [e0] at h1
  rw [e1] at h2
  exact ⟨h1, h2⟩

variable [Cert.Pre_finite_inputs.Facts]

/-- From the printed predicate being all ones: finiteness of both float arrays and the range of every index word. -/
theorem of_pre (x xp : FVec Ideal S8x96x3136x1 .f32) (ei : IVec S2x8x3136x18 32)
    (h : Cert.Pre_finite_inputs.fn (F := Ideal) x xp ei = fun _ => 1#1) :
    (∀ i, ∃ r : ℝ, x i = (r : EReal)) ∧ (∀ i, ∃ r : ℝ, xp i = (r : EReal))
      ∧ (∀ i, 0 ≤ (ei i).toInt ∧ (ei i).toInt < 3136) := by
  -- the one entry of the result; it is the conjunction of the three all-reductions
  have h0 := congrFun h ValueIdx.ix0
  dsimp only [Cert.Pre_finite_inputs.fn] at h0
  obtain ⟨h8, h14⟩ := IntOp.andi_eq_one.1 h0
  obtain ⟨h3, h7⟩ := IntOp.andi_eq_one.1 h8
  refine ⟨fun i => ?_, fun i => ?_, fun i => ?_⟩
  · -- an all-reduction by "and" that came out 1 met a 1 at every entry: |x i| < +infinity
    have e := Host.reduce_andi_all _ _ _ _ _ h3 i
    exact real_of_abs_lt_inf (x i) e
  · have e := Host.reduce_andi_all _ _ _ _ _ h7 i
    exact real_of_abs_lt_inf (xp i) e
  · -- at every entry both compares of the index word against the constants 0 and 3136 are 1
    have e := Host.reduce_andi_all _ _ _ _ _ h14 i
    obtain ⟨e1, e2⟩ := IntOp.andi_eq_one.1 e
    exact range_of_compares (ei i) e1 e2

end Cert.PreFacts

end
-- ==== Proof.lean ====
/-
  The kernel gathers, for every edge (b, n, k), the feature and weight rows of its two end nodes by multiplying a
  one-hot matrix with a [3200, 192] table (the 3136 nodes' 96 + 96 channels and 64 zero rows), split into a narrowed
  high part and the remainder; the reference indexes the arrays directly. From the gathered rows both compute the same
  per-edge similarity factor and the same sums over the 18 slots.

  On the extended reals, for real-valued float arguments and index words naming nodes 0 … 3135:
  * the one-hot product with a block is the block's row, since 0 · y = 0 and 1 · y = y; the remainder is t - t = 0
    because every table entry t is a real number, so the two products add up to the table's row;
  * an index word in range is neither wrapped nor clamped by the reference's gather, so it reads the same node;
  * the kernel adds the two ends' weights slot by slot and the reference end by end: a sum of sums either way.
  The frames of the two kernel programs are the generated ones; the reference's is its generated run; the
  idealization rewrote nothing, so there is nothing to preserve.
-/
import proofs.«419923_j63213328662785_3_alg».proof.Defs
import proofs.«419923_j63213328662785_3_alg».proof.Proof.Gen.Kernel
import proofs.«419923_j63213328662785_3_alg».proof.Proof.Gen.Kernel.Skeleton
import proofs.«419923_j63213328662785_3_alg».proof.Proof.Gen.Kernel.Launch
import proofs.«419923_j63213328662785_3_alg».proof.Proof.Gen.Kernel.Points
import proofs.«419923_j63213328662785_3_alg».proof.Proof.Gen.Kernel.Frame
import proofs.«419923_j63213328662785_3_alg».proof.Proof.Gen.KernelIdeal
import proofs.«419923_j63213328662785_3_alg».proof.Proof.Gen.KernelIdeal.Skeleton
import proofs.«419923_j63213328662785_3_alg».proof.Proof.Gen.KernelIdeal.Launch
import proofs.«419923_j63213328662785_3_alg».proof.Proof.Gen.KernelIdeal.Points
import proofs.«419923_j63213328662785_3_alg».proof.Proof.Gen.KernelIdeal.Frame
import proofs.«419923_j63213328662785_3_alg».proof.Proof.Gen.ReferenceIdeal
import proofs.«419923_j63213328662785_3_alg».proof.Proof.Gen.Pre_finite_inputs
import proofs.«419923_j63213328662785_3_alg».proof.Proof.Gen.ReferenceIdeal.Run
import proofs.«419923_j63213328662785_3_alg».proof.Proof.Gen.ReferenceIdeal.Read
import proofs.«419923_j63213328662785_3_alg».proof.Proof.Glue
import proofs.«419923_j63213328662785_3_alg».proof.Proof.RefValue
import proofs.«419923_j63213328662785_3_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same array: entry (b, ch, n, 0) is, on either side, the end-by-end sum over the 18
    edges of node n of batch b, read off the same three argument arrays. -/
theorem algebraic : Cert.algebraic_KernelIdeal_ReferenceIdeal := by
  intro m ρ m' ρ' hpre hagree
  refine ⟨fun c => Cert.KernelIdeal.Names.resArr m c, Cert.KernelIdeal.ArrayTail.run_value m ρ, ?_⟩
  refine (θ_run Cert.ReferenceIdeal.defs _ _).mono (fun _ h c => ⟨(h c).1.trans ?_, (h c).2⟩)
    (Cert.ReferenceIdeal.Value.run (F := Ideal) m' ρ')
  obtain ⟨hx, hxp, hI⟩ := Cert.PreFacts.of_pre _ _ _ (hpre c)
  rw [Cert.ReferenceIdeal.Read.val_main_v94_eq, (hagree c).1, (hagree c).2.1, (hagree c).2.2]
  funext i
  obtain ⟨b, ch, n, z, rfl⟩ : ∃ (b : Fin 8) (ch : Fin 96) (n : Fin 3136) (z : Fin 1), i = ix4 b ch n z :=
    ⟨i 0, i 1, i 2, i 3, eq_ix4 i⟩
  rw [Cert.ReferenceIdeal.RefValue.ref_at _ _ _ hI b ch n z]
  exact (Cert.KernelIdeal.Glue.kernel_at m c hx hxp hI b ch n z).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
